-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x64 : Shape := ⟨2, ![64, 64]⟩
abbrev S192x40 : Shape := ⟨2, ![192, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S192x40 : S_.BroadcastsInDim S192x40 (![] : Fin 0 → Fin S192x40.rank)
  reducesTo_S192x40_S_d0_1 : S192x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  main_v53

def fn_part2 {F : FTy → Type} [FloatOps F] (main_arg8 : FVec F S64x64 .f32) (main_arg9 : FVec F S64 .f32) (main_arg10 : FVec F S192x40 .f32) (main_arg11 : FVec F S40 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S192x40 .f32 := Host.absf main_arg10
  let main_cst_16 : FVec F S_ .f32 := constant S_ .f32 0x7F800000#32
  let main_v45 : FVec F S192x40 .f32 := broadcastInDim S192x40 ![] bcast_S_S192x40 main_cst_16
  let main_v46 : IVec S192x40 1 := cmpf .olt main_v44 main_v45
  let main_c_17 : IVec S_ 1 := constantI S_ 1 1#1
  let main_v47 : IVec S_ 1 := (fun x v => Host.reduce IntOp.andi x v reducesTo_S192x40_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S192x40 .f32) (main_arg11 : FVec F S40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x256 .f32) (main_arg1 : IVec S2x1600000 32) (main_arg2 : FVec F S256x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S192x40 .f32) (main_arg11 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_v13 main_v16
-- ==== Kernel.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x64 : Shape := ⟨2, ![64, 64]⟩
abbrev S192x40 : Shape := ⟨2, ![192, 40]⟩
abbrev S40 : Shape := ⟨1, ![40]⟩
abbrev S1x64 : Shape := ⟨2, ![1, 64]⟩
abbrev S100000x64 : Shape := ⟨2, ![100000, 64]⟩
abbrev S2000x256 : Shape := ⟨2, ![2000, 256]⟩
abbrev S2000x64 : Shape := ⟨2, ![2000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S64x40 : Shape := ⟨2, ![64, 40]⟩
abbrev S1x40 : Shape := ⟨2, ![1, 40]⟩
abbrev S100000x40 : Shape := ⟨2, ![100000, 40]⟩
abbrev S2000x40 : Shape := ⟨2, ![2000, 40]⟩
abbrev S2000 : Shape := ⟨1, ![2000]⟩
abbrev S2000x1 : Shape := ⟨2, ![2000, 1]⟩

abbrev nBuf : Space → Nat
  | .hbm => 97
  | .vmem => 24
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S192x40, .f32⟩
  | .hbm, ⟨11, _⟩ => ⟨S40, .f32⟩
  | .hbm, ⟨12, _⟩ => ⟨S1x64, .f32⟩
  | .hbm, ⟨13, _⟩ => ⟨S100000x64, .f32⟩
  | .hbm, ⟨14, _⟩ => ⟨S100000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S1x1600000, .i32⟩
  | .hbm, ⟨19, _⟩ => ⟨S1600000, .i32⟩
  | .hbm, ⟨20, _⟩ => ⟨S1700000, .i32⟩
  | .hbm, ⟨21, _⟩ => ⟨S_, .f32⟩
  | .hbm, ⟨22, _⟩ => ⟨S1700000, .f32⟩
  | .hbm, ⟨23, _⟩ => ⟨S_, .f32⟩
  | .hbm, ⟨24, _⟩ => ⟨S100000, .f32⟩
  | .hbm, ⟨25, _⟩ => ⟨S1700000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000, .f32⟩
  | .hbm, ⟨56, _⟩ => ⟨S1700000, .f32⟩
  | .hbm, ⟨57, _⟩ => ⟨S1700000x1, .f32⟩
  | .hbm, ⟨58, _⟩ => ⟨S_, .i32⟩
  | .hbm, ⟨59, _⟩ => ⟨S1700000, .i32⟩
  | .hbm, ⟨60, _⟩ => ⟨S1700000, .i1⟩
  | .hbm, ⟨61, _⟩ => ⟨S_, .i32⟩
  | .hbm, ⟨62, _⟩ => ⟨S1700000, .i32⟩
  | .hbm, ⟨63, _⟩ => ⟨S1700000, .i32⟩
  | .hbm, ⟨64, _⟩ => ⟨S1700000, .i32⟩
  | .hbm, ⟨65, _⟩ => ⟨S1700000x1, .i32⟩
  | .hbm, ⟨66, _⟩ => ⟨S1700000x64, .f32⟩
  | .hbm, ⟨67, _⟩ => ⟨S1700000x64, .f32⟩
  | .hbm, ⟨68, _⟩ => ⟨S1700000x64, .f32⟩
  | .hbm, ⟨69, _⟩ => ⟨S_, .f32⟩
  | .hbm, ⟨70, _⟩ => ⟨S100000x64, .f32⟩
  | .hbm, ⟨71, _⟩ => ⟨S1700000x1, .i32⟩
  | .hbm, ⟨72, _⟩ => ⟨S100000x64, .f32⟩
  | .hbm, ⟨73, _⟩ => ⟨S1700000x1, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x64, .f32⟩
  | .hbm, ⟨83, _⟩ => ⟨S1700000x64, .f32⟩
  | .hbm, ⟨84, _⟩ => ⟨S1700000x64, .f32⟩
  | .hbm, ⟨85, _⟩ => ⟨S_, .f32⟩
  | .hbm, ⟨86, _⟩ => ⟨S100000x64, .f32⟩
  | .hbm, ⟨87, _⟩ => ⟨S1700000x1, .i32⟩
  | .hbm, ⟨88, _⟩ => ⟨S100000x64, .f32⟩
  | .hbm, ⟨89, _⟩ => ⟨S64x40, .f32⟩
  | .hbm, ⟨90, _⟩ => ⟨S64x40, .f32⟩
  | .hbm, ⟨91, _⟩ => ⟨S64x40, .f32⟩
  | .hbm, ⟨92, _⟩ => ⟨S1x64, .f32⟩
  | .hbm, ⟨93, _⟩ => ⟨S1x64, .f32⟩
  | .hbm, ⟨94, _⟩ => ⟨S1x64, .f32⟩
  | .hbm, ⟨95, _⟩ => ⟨S1x40, .f32⟩
  | .hbm, ⟨96, _⟩ => ⟨S100000x40, .f32⟩
  | .local _ .vmem, ⟨0, _⟩ => ⟨S2000x256, .f32⟩
  | .local _ .vmem, ⟨1, _⟩ => ⟨S2000x256, .f32⟩
  | .local _ .vmem, ⟨2, _⟩ => ⟨S256x64, .f32⟩
  | .local _ .vmem, ⟨3, _⟩ => ⟨S1x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S64x40, .f32⟩
  | .local _ .vmem, ⟨19, _⟩ => ⟨S64x40, .f32⟩
  | .local _ .vmem, ⟨20, _⟩ => ⟨S64x40, .f32⟩
  | .local _ .vmem, ⟨21, _⟩ => ⟨S1x40, .f32⟩
  | .local _ .vmem, ⟨22, _⟩ => ⟨S2000x40, .f32⟩
  | .local _ .vmem, ⟨23, _⟩ => ⟨S2000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_c_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_10 : Ref sig .tc := ⟨.hbm, 74, rfl⟩
abbrev main_v48 : Ref sig .tc := ⟨.hbm, 75, rfl⟩
abbrev main_v49 : Ref sig .tc := ⟨.hbm, 76, rfl⟩
abbrev main_c_11 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_12 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg12_0 : Ref sig .tc := ⟨.vmem, 21, rfl⟩
abbrev cc1_stg13_0 : Ref sig .tc := ⟨.vmem, 22, rfl⟩
abbrev cc1_stg13_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem12_0 : DmaSem sig := 21
abbrev cc1_sem13_0 : DmaSem sig := 22
abbrev cc1_sem13_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x40 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64x40 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64x40 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x40 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S2000x40 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  shapeCasts_S64_S1x64 : S64.ShapeCasts S1x64
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  slices_S192x40_S64x40_0_0 : S192x40.Slices ![0, 0] S64x40
  slices_S192x40_S64x40_64_0 : S192x40.Slices ![64, 0] S64x40
  slices_S192x40_S64x40_128_0 : S192x40.Slices ![128, 0] S64x40
  shapeCasts_S40_S1x40 : S40.ShapeCasts S1x40
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  inb_S64x40_S64x40_0_0 : ∀ a, (![0, 0] : Fin 2 → Nat) a + S64x40.size a ≤ S64x40.size a
  h_S64x40 : 0 < S64x40.numel
  shapeCasts_S64x40_S64x40 : S64x40.ShapeCasts S64x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  dot_S2000x256_S256x64_S2000x64_1_0_0_1_n_n_wf : DotDims.WF S2000x256 S256x64 S2000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x64_S2000x64_1_0_0_1_n_n_wf : DotDims.WF S2000x64 S64x64 S2000x64 [1] [0] [0] [1] [] []
  dot_S2000x64_S64x40_S2000x40_1_0_0_1_n_n_wf : DotDims.WF S2000x64 S64x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x40.size a ≤ S64x40.size a
  hwx1_9 : ∀ i : grid1.Coords, EltTy.bits .f32 = 32 ∨ (Rect.block (s := S64x40) S64x40.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64x40.size a ≤ S64x40.size a
  hwx1_10 : ∀ i : grid1.Coords, EltTy.bits .f32 = 32 ∨ (Rect.block (s := S64x40) S64x40.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S64x40.size a ≤ S64x40.size a
  hwx1_11 : ∀ i : grid1.Coords, EltTy.bits .f32 = 32 ∨ (Rect.block (s := S64x40) S64x40.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x40.size a ≤ S1x40.size a
  hwx1_12 : ∀ i : grid1.Coords, EltTy.bits .f32 = 32 ∨ (Rect.block (s := S1x40) S1x40.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S2000x40.size a ≤ S100000x40.size a
  hwx1_13 : ∀ i : grid1.Coords, EltTy.bits .f32 = 32 ∨ (Rect.block (s := S100000x40) S2000x40.size (cc1_transform_13 i) (hinb1_13 i)).WholeWords (EltTy.packing .f32)

variable [Facts₀]

def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x40_S2000x40_1_0_0_1_n_n : DotDims S2000x64 S64x40 S2000x40 where
  lhsContracting := [1]
  rhsContracting := [0]
  lhsNonContracting := [0]
  rhsNonContracting := [1]
  lhsBatch := []
  rhsBatch := []
  wf := dot_S2000x64_S64x40_S2000x40_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v59) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v63) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v64) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v65) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v60) S64x40.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v61) S64x40.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v62) S64x40.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v66) S1x40.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v67) S2000x40.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x64 : Shape := ⟨2, ![64, 64]⟩
abbrev S192x40 : Shape := ⟨2, ![192, 40]⟩
abbrev S40 : Shape := ⟨1, ![40]⟩
abbrev S100000x64 : Shape := ⟨2, ![100000, 64]⟩
abbrev S1x64 : Shape := ⟨2, ![1, 64]⟩
abbrev S_ : Shape := ⟨0, ![]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x64 : Shape := ⟨2, ![1700000, 64]⟩
abbrev S100000x192 : Shape := ⟨2, ![100000, 192]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 129
  | .vmem => 0
  | .smem => 0
  | _ => 0

abbrev hbmTy0_0 (i : Nat) : BufTy := match i % 128 with
  | 0 => ⟨S100000x256, .f32⟩
  | 1 => ⟨S2x1600000, .i32⟩
  | 2 => ⟨S256x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S192x40, .f32⟩
  | 11 => ⟨S40, .f32⟩
  | 12 => ⟨S100000x64, .f32⟩
  | 13 => ⟨S1x64, .f32⟩
  | 14 => ⟨S100000x64, .f32⟩
  | 15 => ⟨S100000x64, .f32⟩
  | 16 => ⟨S_, .f32⟩
  | 17 => ⟨S100000x64, .f32⟩
  | 18 => ⟨S100000x64, .f32⟩
  | 19 => ⟨S100000, .i32⟩
  | 20 => ⟨S1x1600000, .i32⟩
  | 21 => ⟨S1600000, .i32⟩
  | 22 => ⟨S1700000, .i32⟩
  | 23 => ⟨S1x1600000, .i32⟩
  | 24 => ⟨S1600000, .i32⟩
  | 25 => ⟨S1700000, .i32⟩
  | 26 => ⟨S_, .f32⟩
  | 27 => ⟨S1700000, .f32⟩
  | 28 => ⟨S_, .f32⟩
  | 29 => ⟨S100000, .f32⟩
  | 30 => ⟨S1700000x1, .i32⟩
  | 31 => ⟨S100000, .f32⟩
  | 32 => ⟨S_, .f32⟩
  | 33 => ⟨S100000, .f32⟩
  | 34 => ⟨S100000, .i1⟩
  | 35 => ⟨S_, .f32⟩
  | 36 => ⟨S100000, .f32⟩
  | 37 => ⟨S100000, .f32⟩
  | 38 => ⟨S100000, .f32⟩
  | 39 => ⟨S_, .f32⟩
  | 40 => ⟨S_, .f32⟩
  | 41 => ⟨S100000, .f32⟩
  | 42 => ⟨S100000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000, .f32⟩
  | 61 => ⟨S1700000, .f32⟩
  | 62 => ⟨S1700000x1, .f32⟩
  | 63 => ⟨S_, .i32⟩
  | 64 => ⟨S1700000, .i32⟩
  | 65 => ⟨S1700000, .i1⟩
  | 66 => ⟨S_, .i32⟩
  | 67 => ⟨S1700000, .i32⟩
  | 68 => ⟨S1700000, .i32⟩
  | 69 => ⟨S1700000, .i32⟩
  | 70 => ⟨S1700000x1, .i32⟩
  | 71 => ⟨S1700000x64, .f32⟩
  | 72 => ⟨S1700000x64, .f32⟩
  | 73 => ⟨S1700000x64, .f32⟩
  | 74 => ⟨S_, .f32⟩
  | 75 => ⟨S100000x64, .f32⟩
  | 76 => ⟨S1700000x1, .i32⟩
  | 77 => ⟨S100000x64, .f32⟩
  | 78 => ⟨S1700000x1, .f32⟩
  | 79 => ⟨S_, .i32⟩
  | 80 => ⟨S1700000, .i32⟩
  | 81 => ⟨S1700000, .i1⟩
  | 82 => ⟨S_, .i32⟩
  | 83 => ⟨S1700000, .i32⟩
  | 84 => ⟨S1700000, .i32⟩
  | 85 => ⟨S1700000, .i32⟩
  | 86 => ⟨S1700000x1, .i32⟩
  | 87 => ⟨S1700000x64, .f32⟩
  | 88 => ⟨S1700000x64, .f32⟩
  | 89 => ⟨S1700000x64, .f32⟩
  | 90 => ⟨S_, .f32⟩
  | 91 => ⟨S100000x64, .f32⟩
  | 92 => ⟨S1700000x1, .i32⟩
  | 93 => ⟨S100000x64, .f32⟩
  | 94 => ⟨S100000x64, .f32⟩
  | 95 => ⟨S1x64, .f32⟩
  | 96 => ⟨S100000x64, .f32⟩
  | 97 => ⟨S100000x64, .f32⟩
  | 98 => ⟨S100000x64, .f32⟩
  | 99 => ⟨S1x64, .f32⟩
  | 100 => ⟨S100000x64, .f32⟩
  | 101 => ⟨S100000x64, .f32⟩
  | 102 => ⟨S100000x64, .f32⟩
  | 103 => ⟨S1x64, .f32⟩
  | 104 => ⟨S100000x64, .f32⟩
  | 105 => ⟨S100000x64, .f32⟩
  | 106 => ⟨S100000x192, .f32⟩
  | 107 => ⟨S_, .f32⟩
  | 108 => ⟨S100000x192, .f32⟩
  | 109 => ⟨S100000x192, .f32⟩
  | 110 => ⟨S100000x40, .f32⟩
  | 111 => ⟨S1x40, .f32⟩
  | 112 => ⟨S100000x40, .f32⟩
  | 113 => ⟨S100000x40, .f32⟩
  | 114 => ⟨S_, .f32⟩
  | 115 => ⟨S100000, .f32⟩
  | 116 => ⟨S_, .f32⟩
  | 117 => ⟨S100000, .f32⟩
  | 118 => ⟨S100000, .f32⟩
  | 119 => ⟨S100000x1, .f32⟩
  | 120 => ⟨S100000x40, .f32⟩
  | 121 => ⟨S100000x40, .f32⟩
  | 122 => ⟨S100000x40, .f32⟩
  | 123 => ⟨S_, .f32⟩
  | 124 => ⟨S100000, .f32⟩
  | 125 => ⟨S100000x1, .f32⟩
  | 126 => ⟨S100000x1, .f32⟩
  | 127 => ⟨S100000x40, .f32⟩
  | _ => ⟨S100000x256, .f32⟩

abbrev hbmTy0_1 (i : Nat) : BufTy := match i % 128 with
  | 0 => ⟨S100000x40, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_call1_v0 : Ref sig .tc := ⟨.hbm, 40, rfl⟩
abbrev main_call1_v1 : Ref sig .tc := ⟨.hbm, 41, rfl⟩
abbrev main_v21 : Ref sig .tc := ⟨.hbm, 42, rfl⟩
abbrev main_c : Ref sig .tc := ⟨.hbm, 43, rfl⟩
abbrev main_v22 : Ref sig .tc := ⟨.hbm, 44, rfl⟩
abbrev main_v23 : Ref sig .tc := ⟨.hbm, 45, rfl⟩
abbrev main_c_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_5 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_7 : Ref sig .tc := ⟨.hbm, 63, rfl⟩
abbrev main_v38 : Ref sig .tc := ⟨.hbm, 64, rfl⟩
abbrev main_v39 : Ref sig .tc := ⟨.hbm, 65, rfl⟩
abbrev main_c_8 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_9 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_10 : Ref sig .tc := ⟨.hbm, 79, rfl⟩
abbrev main_v51 : Ref sig .tc := ⟨.hbm, 80, rfl⟩
abbrev main_v52 : Ref sig .tc := ⟨.hbm, 81, rfl⟩
abbrev main_c_11 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_12 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_call2_cst : Ref sig .tc := ⟨.hbm, 107, rfl⟩
abbrev main_call2_v0 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_call3_cst : Ref sig .tc := ⟨.hbm, 114, rfl⟩
abbrev main_call3_v0 : Ref sig .tc := ⟨.hbm, 115, rfl⟩
abbrev main_call3_cst_0 : Ref sig .tc := ⟨.hbm, 116, rfl⟩
abbrev main_call3_v1 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_v6 : Ref sig .tc := ⟨.hbm, 122, rfl⟩
abbrev main_call3_cst_1 : Ref sig .tc := ⟨.hbm, 123, rfl⟩
abbrev main_call3_v7 : Ref sig .tc := ⟨.hbm, 124, rfl⟩
abbrev main_call3_v8 : Ref sig .tc := ⟨.hbm, 125, rfl⟩
abbrev main_call3_v9 : Ref sig .tc := ⟨.hbm, 126, rfl⟩
abbrev main_call3_v10 : Ref sig .tc := ⟨.hbm, 127, rfl⟩
abbrev main_v81 : Ref sig .tc := ⟨.hbm, 128, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  concatenates_S100000x64_S100000x64_S100000x64_S100000x192_d1 : Shape.Concatenates [S100000x64, S100000x64, S100000x64] S100000x192 1
  bcast_S_S100000x192 : S_.BroadcastsInDim S100000x192 (![] : Fin 0 → Fin S100000x192.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x256_S256x64_S100000x64_1_0_0_1_n_n_wf : DotDims.WF S100000x256 S256x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x192_S192x40_S100000x40_1_0_0_1_n_n_wf : DotDims.WF S100000x192 S192x40 S100000x40 [1] [0] [0] [1] [] []

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x192_S192x40_S100000x40_1_0_0_1_n_n : DotDims S100000x192 S192x40 S100000x40 where
  lhsContracting := [1]
  rhsContracting := [0]
  lhsNonContracting := [0]
  rhsNonContracting := [1]
  lhsBatch := []
  rhsBatch := []
  wf := dot_S100000x192_S192x40_S100000x40_1_0_0_1_n_n_wf

class Facts : Prop extends Facts₀ where

variable [Facts]
-- ==== Proof.LibNary3.lean ====
/-
  The result of a host operation with THREE operand buffers given as a literal family `![x, a, b]` (a concatenate of
  three arrays), read at its own result buffer: the operation's function applied to the three operands' contents, each
  named AT ITS OWN buffer (`Fin.cons` of the three), rather than to the family `fun k => F ↑(![x, a, b] k)` under a binder.
  With the operands named one by one, whatever is known of each operand's contents can be rewritten in place, and the
  function's body with `u k` read as operand `k`'s contents is the result by β and `Fin.cons` at the literals 0, 1, 2.
  The second form is the first with the result buffer kept out of the rewriting index, so that it rewrites wherever the
  operation's result is read, whatever form the buffer's name has there.
-/
import Idealize.ShloMosaic.Lib.StableHlo.Run

noncomputable section

namespace Cert.Lib.Nary3

open Idealize.ShloMosaic Idealize.ShloMosaic.StableHlo

variable {τ : Topo} {sig : RefSig} {Val : EltTy → Type} {x a b y : Ref sig .tc}

/-- A three-operand operation's result at its result buffer, the operands' contents named one by one. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, with the result buffer kept out of the pattern's index. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.Lib.Nary3

end
-- ==== Proof.LibTypedRef.lean ====
/-
  A typed reference's two transports — contents at the value's type as contents of the buffer, and back — are inverse
  to each other: both are casts along the one equation "the buffer's type is the value's type".
-/
import Idealize.ShloMosaic.Lib.StableHlo

noncomputable section

namespace Cert.Lib.TypedRef

open Idealize.ShloMosaic Idealize.ShloMosaic.StableHlo

variable {sig : RefSig} {Val : EltTy → Type} {T : BufTy}

/-- Contents sent to the buffer's type and brought back are unchanged. -/
theorem ofBuf_toBuf (x : TRef sig T) (v : T.Contents Val) : x.ofBuf (x.toBuf v) = v := by
  obtain ⟨r, h, a, b⟩ := x
  subst h
  rfl

/-- Contents brought from the buffer's type and sent back are unchanged. -/
theorem toBuf_ofBuf (x : TRef sig T) (v : x.ref.ty.Contents Val) : x.toBuf (x.ofBuf v) = v := by
  obtain ⟨r, h, a, b⟩ := x
  subst h
  rfl

end Cert.Lib.TypedRef

end
-- ==== Proof.RefValue.lean ====
/-
  The reference's run, read as its stages. Every weakly fair execution of the reference's @main — 117 host operations in
  a line — terminates, and each buffer ends at the fold of the operations over the launch contents. That fold is read in
  five stretches, each from ARBITRARY starting contents: operations 1–31 make the hidden layer, the source and destination
  index arrays and the per-node factors; 32–82 the two propagation steps; 83–94 the three projections; 95–102 their
  concatenation, the clipping at zero and the logits; 103–117 the log-softmax. In each stretch every operation's result is
  its function of its operands' contents, so the stretch's outputs are the reference's stage functions of its inputs; the
  stretches compose because running a list of operations is running its first `k` and then the rest. The three-way
  concatenate's operands are named one by one (Proof/LibNary3.lean), and the typed transports around the called
  functions' operations cancel (Proof/LibTypedRef.lean). No operation writes an argument array.
-/
import proofs.«104437_j26439818674272_1_alg».proof.Proof.RefRead
import proofs.«104437_j26439818674272_1_alg».proof.Proof.LibNary3
import proofs.«104437_j26439818674272_1_alg».proof.Proof.LibTypedRef
import Idealize.ShloMosaic.Lib.StableHlo.Run

set_option maxRecDepth 8192

noncomputable section

namespace Cert.Bridge

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP Cert.Lib.TypedRef

variable {F : FTy → Type} [FloatOps F]

/-- Running a list of operations is running its first `k` and then the rest. -/
theorem after_take_drop (k : Nat) : ∀ (l : List (HloOp τ sig (Elt F))) (V : Valuation τ sig (Elt F)),
    after l V = after (l.drop k) (after (l.take k) V) := by
  induction k with
  | zero => intro l V; rfl
  | succ k ih =>
    intro l V
    cases l with
    | nil => rfl
    | cons a l => exact ih l _

/-- Operations 1–31; the rest; operations 32–82; the rest; operations 83–94; the rest; operations 95–102; operations 103–117. -/
abbrev refS1 : List (HloOp τ sig (Elt F)) := (ops (F := F)).take 31
abbrev refR1 : List (HloOp τ sig (Elt F)) := (ops (F := F)).drop 31
abbrev refS2 : List (HloOp τ sig (Elt F)) := (refR1 (F := F)).take 51
abbrev refR2 : List (HloOp τ sig (Elt F)) := (refR1 (F := F)).drop 51
abbrev refS3 : List (HloOp τ sig (Elt F)) := (refR2 (F := F)).take 12
abbrev refR3 : List (HloOp τ sig (Elt F)) := (refR2 (F := F)).drop 12
abbrev refS3b : List (HloOp τ sig (Elt F)) := (refR3 (F := F)).take 8
abbrev refS4 : List (HloOp τ sig (Elt F)) := (refR3 (F := F)).drop 8

section Stretches

variable (Y : Valuation τ sig (Elt F))

/-! ## Operations 1–31 -/

set_option maxHeartbeats 4000000 in
/-- The hidden layer. -/
theorem ref1_h : after (refS1 (F := F)) Y (Proc.devRef .tc main_v4) = val_main_v4 (F := F) (Y (Proc.devRef .tc main_arg0)) (Y (Proc.devRef .tc main_arg2)) (Y (Proc.devRef .tc main_arg3)) := by
  simp only [refS1, ops, List.take_succ_cons, List.take_zero, List.drop_succ_cons, List.drop_zero]
  after_results
  simp only [ofBuf_toBuf]
  rfl
/-- The source indices, the destination indices, the per-node factors. -/
theorem ref1_src : after (refS1 (F := F)) Y (Proc.devRef .tc main_v8) = val_main_v8 (F := F) (Y (Proc.devRef .tc main_arg1)) := by
  simp only [refS1, ops, List.take_succ_cons, List.take_zero, List.drop_succ_cons, List.drop_zero]
  after_results
  rfl
theorem ref1_dst : after (refS1 (F := F)) Y (Proc.devRef .tc main_v11) = val_main_v11 (F := F) (Y (Proc.devRef .tc main_arg1)) := by
  simp only [refS1, ops, List.take_succ_cons, List.take_zero, List.drop_succ_cons, List.drop_zero]
  after_results
  rfl
set_option maxHeartbeats 4000000 in
theorem ref1_dis : after (refS1 (F := F)) Y (Proc.devRef .tc main_v21) = val_main_v21 (F := F) (Y (Proc.devRef .tc main_arg1)) := by
  simp only [refS1, ops, List.take_succ_cons, List.take_zero, List.drop_succ_cons, List.drop_zero]
  after_results
  simp only [ofBuf_toBuf]
  rfl
theorem ref1_arg4 : after (refS1 (F := F)) Y (Proc.devRef .tc main_arg4) = Y (Proc.devRef .tc main_arg4) := by
  simp only [refS1, ops, List.take_succ_cons, List.take_zero, List.drop_succ_cons, List.drop_zero]
  after_results
theorem ref1_arg5 : after (refS1 (F := F)) Y (Proc.devRef .tc main_arg5) = Y (Proc.devRef .tc main_arg5) := by
  simp only [refS1, ops, List.take_succ_cons, List.take_zero, List.drop_succ_cons, List.drop_zero]
  after_results
theorem ref1_arg6 : after (refS1 (F := F)) Y (Proc.devRef .tc main_arg6) = Y (Proc.devRef .tc main_arg6) := by
  simp only [refS1, ops, List.take_succ_cons, List.take_zero, List.drop_succ_cons, List.drop_zero]
  after_results
theorem ref1_arg7 : after (refS1 (F := F)) Y (Proc.devRef .tc main_arg7) = Y (Proc.devRef .tc main_arg7) := by
  simp only [refS1, ops, List.take_succ_cons, List.take_zero, List.drop_succ_cons, List.drop_zero]
  after_results
theorem ref1_arg8 : after (refS1 (F := F)) Y (Proc.devRef .tc main_arg8) = Y (Proc.devRef .tc main_arg8) := by
  simp only [refS1, ops, List.take_succ_cons, List.take_zero, List.drop_succ_cons, List.drop_zero]
  after_results
theorem ref1_arg9 : after (refS1 (F := F)) Y (Proc.devRef .tc main_arg9) = Y (Proc.devRef .tc main_arg9) := by
  simp only [refS1, ops, List.take_succ_cons, List.take_zero, List.drop_succ_cons, List.drop_zero]
  after_results
theorem ref1_arg10 : after (refS1 (F := F)) Y (Proc.devRef .tc main_arg10) = Y (Proc.devRef .tc main_arg10) := by
  simp only [refS1, ops, List.take_succ_cons, List.take_zero, List.drop_succ_cons, List.drop_zero]
  after_results
theorem ref1_arg11 : after (refS1 (F := F)) Y (Proc.devRef .tc main_arg11) = Y (Proc.devRef .tc main_arg11) := by
  simp only [refS1, ops, List.take_succ_cons, List.take_zero, List.drop_succ_cons, List.drop_zero]
  after_results

/-! ## Operations 32–82 -/

section
attribute [local irreducible] val_main_v4 val_main_v8 val_main_v11 val_main_v21

set_option maxHeartbeats 2000000 in
/-- One propagation step. -/
theorem ref2_once (x0 : (⟨S100000x256, .f32⟩ : BufTy).Contents (Elt F)) (x1 : (⟨S2x1600000, .i32⟩ : BufTy).Contents (Elt F)) (x2 : (⟨S256x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S192x40, .f32⟩ : BufTy).Contents (Elt F)) (x11 : (⟨S40, .f32⟩ : BufTy).Contents (Elt F))
    (h4 : Y (Proc.devRef .tc main_v4) = val_main_v4 (F := F) x0 x2 x3) (h8 : Y (Proc.devRef .tc main_v8) = val_main_v8 (F := F) x1)
    (h11 : Y (Proc.devRef .tc main_v11) = val_main_v11 (F := F) x1) (h21 : Y (Proc.devRef .tc main_v21) = val_main_v21 (F := F) x1) :
    after (refS2 (F := F)) Y (Proc.devRef .tc main_v49) = val_main_v49 (F := F) x0 x1 x2 x3 := by
  simp only [refS2, refR1, ops, List.take_succ_cons, List.take_zero, List.drop_succ_cons, List.drop_zero]
  after_results_simp
  rw [h4, h8, h11, h21]
  rfl

set_option maxHeartbeats 4000000 in
/-- Two propagation steps. -/
theorem ref2_twice (x0 : (⟨S100000x256, .f32⟩ : BufTy).Contents (Elt F)) (x1 : (⟨S2x1600000, .i32⟩ : BufTy).Contents (Elt F)) (x2 : (⟨S256x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S192x40, .f32⟩ : BufTy).Contents (Elt F)) (x11 : (⟨S40, .f32⟩ : BufTy).Contents (Elt F))
    (h4 : Y (Proc.devRef .tc main_v4) = val_main_v4 (F := F) x0 x2 x3) (h8 : Y (Proc.devRef .tc main_v8) = val_main_v8 (F := F) x1)
    (h11 : Y (Proc.devRef .tc main_v11) = val_main_v11 (F := F) x1) (h21 : Y (Proc.devRef .tc main_v21) = val_main_v21 (F := F) x1) :
    after (refS2 (F := F)) Y (Proc.devRef .tc main_v62) = val_main_v62 (F := F) x0 x1 x2 x3 := by
  simp only [refS2, refR1, ops, List.take_succ_cons, List.take_zero, List.drop_succ_cons, List.drop_zero]
  after_results_simp
  rw [h4, h8, h11, h21]
  rfl
end

theorem ref2_v4 : after (refS2 (F := F)) Y (Proc.devRef .tc main_v4) = Y (Proc.devRef .tc main_v4) := by
  simp only [refS2, refR1, ops, List.take_succ_cons, List.take_zero, List.drop_succ_cons, List.drop_zero]
  after_results_simp
theorem ref2_arg4 : after (refS2 (F := F)) Y (Proc.devRef .tc main_arg4) = Y (Proc.devRef .tc main_arg4) := by
  simp only [refS2, refR1, ops, List.take_succ_cons, List.take_zero, List.drop_succ_cons, List.drop_zero]
  after_results_simp
theorem ref2_arg5 : after (refS2 (F := F)) Y (Proc.devRef .tc main_arg5) = Y (Proc.devRef .tc main_arg5) := by
  simp only [refS2, refR1, ops, List.take_succ_cons, List.take_zero, List.drop_succ_cons, List.drop_zero]
  after_results_simp
theorem ref2_arg6 : after (refS2 (F := F)) Y (Proc.devRef .tc main_arg6) = Y (Proc.devRef .tc main_arg6) := by
  simp only [refS2, refR1, ops, List.take_succ_cons, List.take_zero, List.drop_succ_cons, List.drop_zero]
  after_results_simp
theorem ref2_arg7 : after (refS2 (F := F)) Y (Proc.devRef .tc main_arg7) = Y (Proc.devRef .tc main_arg7) := by
  simp only [refS2, refR1, ops, List.take_succ_cons, List.take_zero, List.drop_succ_cons, List.drop_zero]
  after_results_simp
theorem ref2_arg8 : after (refS2 (F := F)) Y (Proc.devRef .tc main_arg8) = Y (Proc.devRef .tc main_arg8) := by
  simp only [refS2, refR1, ops, List.take_succ_cons, List.take_zero, List.drop_succ_cons, List.drop_zero]
  after_results_simp
theorem ref2_arg9 : after (refS2 (F := F)) Y (Proc.devRef .tc main_arg9) = Y (Proc.devRef .tc main_arg9) := by
  simp only [refS2, refR1, ops, List.take_succ_cons, List.take_zero, List.drop_succ_cons, List.drop_zero]
  after_results_simp
theorem ref2_arg10 : after (refS2 (F := F)) Y (Proc.devRef .tc main_arg10) = Y (Proc.devRef .tc main_arg10) := by
  simp only [refS2, refR1, ops, List.take_succ_cons, List.take_zero, List.drop_succ_cons, List.drop_zero]
  after_results_simp
theorem ref2_arg11 : after (refS2 (F := F)) Y (Proc.devRef .tc main_arg11) = Y (Proc.devRef .tc main_arg11) := by
  simp only [refS2, refR1, ops, List.take_succ_cons, List.take_zero, List.drop_succ_cons, List.drop_zero]
  after_results_simp

/-! ## Operations 83–94 -/

section
attribute [local irreducible] val_main_v4 val_main_v49 val_main_v62

set_option maxHeartbeats 2000000 in
/-- The three projections: each feature array times its weight matrix plus its bias. -/
theorem ref3_proj0 (x0 : (⟨S100000x256, .f32⟩ : BufTy).Contents (Elt F)) (x1 : (⟨S2x1600000, .i32⟩ : BufTy).Contents (Elt F)) (x2 : (⟨S256x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S192x40, .f32⟩ : BufTy).Contents (Elt F)) (x11 : (⟨S40, .f32⟩ : BufTy).Contents (Elt F))
    (hf : Y (Proc.devRef .tc main_v4) = val_main_v4 (F := F) x0 x2 x3) (ew : Y (Proc.devRef .tc main_arg4) = x4) (eb : Y (Proc.devRef .tc main_arg5) = x5) :
    after (refS3 (F := F)) Y (Proc.devRef .tc main_v66) = val_main_v66 (F := F) x0 x2 x3 x4 x5 := by
  simp only [refS3, refR2, refR1, ops, List.take_succ_cons, List.take_zero, List.drop_succ_cons, List.drop_zero]
  after_results_simp
  rw [hf, ew, eb]
  rfl
set_option maxHeartbeats 2000000 in
theorem ref3_proj1 (x0 : (⟨S100000x256, .f32⟩ : BufTy).Contents (Elt F)) (x1 : (⟨S2x1600000, .i32⟩ : BufTy).Contents (Elt F)) (x2 : (⟨S256x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S192x40, .f32⟩ : BufTy).Contents (Elt F)) (x11 : (⟨S40, .f32⟩ : BufTy).Contents (Elt F))
    (hf : Y (Proc.devRef .tc main_v49) = val_main_v49 (F := F) x0 x1 x2 x3) (ew : Y (Proc.devRef .tc main_arg6) = x6) (eb : Y (Proc.devRef .tc main_arg7) = x7) :
    after (refS3 (F := F)) Y (Proc.devRef .tc main_v70) = val_main_v70 (F := F) x0 x1 x2 x3 x6 x7 := by
  simp only [refS3, refR2, refR1, ops, List.take_succ_cons, List.take_zero, List.drop_succ_cons, List.drop_zero]
  after_results_simp
  rw [hf, ew, eb]
  rfl
set_option maxHeartbeats 2000000 in
theorem ref3_proj2 (x0 : (⟨S100000x256, .f32⟩ : BufTy).Contents (Elt F)) (x1 : (⟨S2x1600000, .i32⟩ : BufTy).Contents (Elt F)) (x2 : (⟨S256x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S192x40, .f32⟩ : BufTy).Contents (Elt F)) (x11 : (⟨S40, .f32⟩ : BufTy).Contents (Elt F))
    (hf : Y (Proc.devRef .tc main_v62) = val_main_v62 (F := F) x0 x1 x2 x3) (ew : Y (Proc.devRef .tc main_arg8) = x8) (eb : Y (Proc.devRef .tc main_arg9) = x9) :
    after (refS3 (F := F)) Y (Proc.devRef .tc main_v74) = val_main_v74 (F := F) x0 x1 x2 x3 x8 x9 := by
  simp only [refS3, refR2, refR1, ops, List.take_succ_cons, List.take_zero, List.drop_succ_cons, List.drop_zero]
  after_results_simp
  rw [hf, ew, eb]
  rfl
end

theorem ref3_arg10 : after (refS3 (F := F)) Y (Proc.devRef .tc main_arg10) = Y (Proc.devRef .tc main_arg10) := by
  simp only [refS3, refR2, refR1, ops, List.take_succ_cons, List.take_zero, List.drop_succ_cons, List.drop_zero]
  after_results_simp
theorem ref3_arg11 : after (refS3 (F := F)) Y (Proc.devRef .tc main_arg11) = Y (Proc.devRef .tc main_arg11) := by
  simp only [refS3, refR2, refR1, ops, List.take_succ_cons, List.take_zero, List.drop_succ_cons, List.drop_zero]
  after_results_simp

/-! ## Operations 95–102 -/

section
attribute [local irreducible] val_main_v66 val_main_v70 val_main_v74

set_option maxHeartbeats 2000000 in
/-- The logits: the three projections side by side, clipped at zero, times the last weight matrix, plus its bias. -/
theorem ref3_logits (x0 : (⟨S100000x256, .f32⟩ : BufTy).Contents (Elt F)) (x1 : (⟨S2x1600000, .i32⟩ : BufTy).Contents (Elt F)) (x2 : (⟨S256x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S192x40, .f32⟩ : BufTy).Contents (Elt F)) (x11 : (⟨S40, .f32⟩ : BufTy).Contents (Elt F))
    (h66 : Y (Proc.devRef .tc main_v66) = val_main_v66 (F := F) x0 x2 x3 x4 x5)
    (h70 : Y (Proc.devRef .tc main_v70) = val_main_v70 (F := F) x0 x1 x2 x3 x6 x7)
    (h74 : Y (Proc.devRef .tc main_v74) = val_main_v74 (F := F) x0 x1 x2 x3 x8 x9)
    (e10 : Y (Proc.devRef .tc main_arg10) = x10) (e11 : Y (Proc.devRef .tc main_arg11) = x11) :
    after (refS3b (F := F)) Y (Proc.devRef .tc main_v80) = val_main_v80 (F := F) x0 x1 x2 x3 x4 x5 x6 x7 x8 x9 x10 x11 := by
  simp only [refS3b, refR3, refR2, refR1, ops, List.take_succ_cons, List.take_zero, List.drop_succ_cons, List.drop_zero]
  simp (disch := decide) only [after_cons, after_nil,
    nullary_result', unary_result', binary_result', ternary_result', quaternary_result', reshape_result',
    Cert.Lib.Nary3.nary3_result', unaryIndexed_result', binaryIndexed_result',
    nullary_result_ne', unary_result_ne', binary_result_ne', ternary_result_ne', quaternary_result_ne', reshape_result_ne',
    nary_result_ne', unaryIndexed_result_ne', binaryIndexed_result_ne']
  simp only [ofBuf_toBuf]
  rw [h66, h70, h74, e10, e11]
  rfl
end

/-! ## Operations 103–117 -/

section
attribute [local irreducible] val_main_v80

set_option maxHeartbeats 2000000 in
/-- The log-softmax. -/
theorem ref4_result (x0 : (⟨S100000x256, .f32⟩ : BufTy).Contents (Elt F)) (x1 : (⟨S2x1600000, .i32⟩ : BufTy).Contents (Elt F)) (x2 : (⟨S256x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S64x64, .f32⟩ : BufTy).Contents (Elt F)) (x9 : (⟨S64, .f32⟩ : BufTy).Contents (Elt F)) (x10 : (⟨S192x40, .f32⟩ : BufTy).Contents (Elt F)) (x11 : (⟨S40, .f32⟩ : BufTy).Contents (Elt F))
    (h80 : Y (Proc.devRef .tc main_v80) = val_main_v80 (F := F) x0 x1 x2 x3 x4 x5 x6 x7 x8 x9 x10 x11) :
    after (refS4 (F := F)) Y (Proc.devRef .tc main_v81) = val_main_v81 (F := F) x0 x1 x2 x3 x4 x5 x6 x7 x8 x9 x10 x11 := by
  simp only [refS4, refR3, refR2, refR1, ops, List.take_succ_cons, List.take_zero, List.drop_succ_cons, List.drop_zero]
  after_results_simp
  simp only [ofBuf_toBuf]
  rw [h80]
  rfl
end

end Stretches

/-- The fold of the reference's operations over the launch contents, at the result buffer, is the last stage of the
    twelve argument arrays. -/
theorem ref_result (m : (ℓ : Loc nD τ sig) → Buf (Elt F) ℓ) (c : Dev nD) :
    after (ops (F := F)) (launchContents m c) (Proc.devRef .tc main_v81)
      = val_main_v81 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [after_take_drop 31 (ops (F := F)), after_take_drop 51 (List.drop 31 (ops (F := F))),
    after_take_drop 12 (List.drop 51 (List.drop 31 (ops (F := F)))),
    after_take_drop 8 (List.drop 12 (List.drop 51 (List.drop 31 (ops (F := F)))))]
  have hh : after (refS1 (F := F)) (launchContents m c) (Proc.devRef .tc main_v4) = val_main_v4 (F := F) (m ((c.tc : Thread nD τ).loc main_arg0)) (m ((c.tc : Thread nD τ).loc main_arg2)) (m ((c.tc : Thread nD τ).loc main_arg3)) := ref1_h _
  have hs : after (refS1 (F := F)) (launchContents m c) (Proc.devRef .tc main_v8) = val_main_v8 (F := F) (m ((c.tc : Thread nD τ).loc main_arg1)) := ref1_src _
  have hd : after (refS1 (F := F)) (launchContents m c) (Proc.devRef .tc main_v11) = val_main_v11 (F := F) (m ((c.tc : Thread nD τ).loc main_arg1)) := ref1_dst _
  have hn : after (refS1 (F := F)) (launchContents m c) (Proc.devRef .tc main_v21) = val_main_v21 (F := F) (m ((c.tc : Thread nD τ).loc main_arg1)) := ref1_dis _
  have ha : ∀ b, b ∈ [main_arg4, main_arg5, main_arg6, main_arg7, main_arg8, main_arg9, main_arg10, main_arg11] →
      after (refS2 (F := F)) (after (refS1 (F := F)) (launchContents m c)) (Proc.devRef .tc b) = launchContents m c (Proc.devRef .tc b) := by
    intro b hb
    simp only [List.mem_cons, List.mem_nil_iff, or_false] at hb
    rcases hb with rfl | rfl | rfl | rfl | rfl | rfl | rfl | rfl
    · exact (ref2_arg4 _).trans (ref1_arg4 _)
    · exact (ref2_arg5 _).trans (ref1_arg5 _)
    · exact (ref2_arg6 _).trans (ref1_arg6 _)
    · exact (ref2_arg7 _).trans (ref1_arg7 _)
    · exact (ref2_arg8 _).trans (ref1_arg8 _)
    · exact (ref2_arg9 _).trans (ref1_arg9 _)
    · exact (ref2_arg10 _).trans (ref1_arg10 _)
    · exact (ref2_arg11 _).trans (ref1_arg11 _)
  have h1 := ref2_once (after (refS1 (F := F)) (launchContents m c)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) hh hs hd hn
  have h2 := ref2_twice (after (refS1 (F := F)) (launchContents m c)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) hh hs hd hn
  have h0 := (ref2_v4 (after (refS1 (F := F)) (launchContents m c))).trans hh
  refine ref4_result _ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) ?_
  refine ref3_logits _ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) ?_ ?_ ?_ ?_ ?_
  · exact ref3_proj0 _ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) h0 (ha main_arg4 (by simp)) (ha main_arg5 (by simp))
  · exact ref3_proj1 _ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) h1 (ha main_arg6 (by simp)) (ha main_arg7 (by simp))
  · exact ref3_proj2 _ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) h2 (ha main_arg8 (by simp)) (ha main_arg9 (by simp))
  · exact (ref3_arg10 _).trans (ha main_arg10 (by simp))
  · exact (ref3_arg11 _).trans (ha main_arg11 (by simp))

set_option maxHeartbeats 46800000 in
/-- On every device, from any memory with zero counters: every weakly fair execution of the reference terminates with
    the result buffer at the last stage of the argument arrays and the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v81) = val_main_v81 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v81).trans (ref_result m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl)⟩)
    (run_seq scopedRefs_eq scopedSems_eq defs main (fun _ => ops) main_eq (fun _ => ops_sub) m ρ)

end Cert.Bridge

end
-- ==== Proof.Rows.lean ====
/-
  A row of one of the fifty row-blocks, as a row of the whole array: the node dimension 100000 is cut into fifty
  consecutive blocks of 2000 rows, and row `p` of block `b` is row `2000·b + p` of the array.
-/
import Idealize.ShloMosaic.Lib.ValueIdx

namespace Cert.Bridge

/-- Row `p` of block `b`, counted in the whole array. -/
def grow (b : Fin 50) (p : Fin 2000) : Fin 100000 := ⟨2000 * b.val + p.val, by omega⟩

@[simp] theorem grow_val (b : Fin 50) (p : Fin 2000) : (grow b p).val = 2000 * b.val + p.val := rfl

/-- Every row of the array is a row of exactly the block its quotient by 2000 names. -/
theorem grow_div_mod (r : Fin 100000) :
    grow ⟨r.val / 2000, by omega⟩ ⟨r.val % 2000, Nat.mod_lt _ (by decide)⟩ = r :=
  Fin.ext (by simp only [grow_val]; omega)

end Cert.Bridge
-- ==== Proof.Region0Value.lean ====
/-
  The first region's result array as ONE function of its three input arrays. The node dimension is cut into fifty blocks
  of 2000 rows; point `t` of the grid reads rows `2000·t … 2000·t + 1999` of `x`, the whole of `w1` and the whole bias row,
  and writes rows `2000·t … 2000·t + 1999` of the result. So if the stored block is, entry by entry, a function `G` of the
  arrays read at the block's rows, the fifty write-backs tile the array and it ends holding `G`.
-/
import proofs.«104437_j26439818674272_1_alg».proof.Proof.Gen.KernelIdeal.Frame
import proofs.«104437_j26439818674272_1_alg».proof.Proof.Rows
import Idealize.ShloMosaic.Lib.Pipeline.Value
import Idealize.ShloMosaic.Lib.ValueIdx

set_option maxRecDepth 16384

noncomputable section

namespace Cert.Bridge

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]

theorem off00 : (![0, 0] : Fin 2 → Nat) = fun _ => 0 := funext fun a => by fin_cases a <;> rfl

/-- A grid point of the first region as a block number. -/
def blk0 (t : Fin cfg0.N) : Fin 50 := ⟨t.val, by have h : t.val < grid0.N := t.isLt; have := N_0; omega⟩

/-- The printed index maps over the grid: the row-blocked windows sit at block `t`, the whole-array windows at block 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt F) ((c : Thread nD τ).loc b))

/-- Row `p` of point `t`'s block of `x` is row `2000·t + p` of `x`. -/
theorem iblk0_x (c : Dev nD) (t : Fin cfg0.N) (p : Fin 2000) (l : Fin 256) :
    iblk0 V c 0 t (ix2 p l) = V c main_arg0 (ix2 (grow (blk0 t) p) l) := by
  obtain ⟨e0, e1, -⟩ := idx0 t
  show V c main_arg0 (((cfg0.win 0).blk t).view.emb (ix2 p l)) = _
  refine congrArg _ (funext fun a => Fin.ext ?_)
  match a with
  | ⟨0, _⟩ => show win0_0.index t (0 : Fin 2) * 2000 + 1 * p.val = 2000 * t.val + p.val; omega
  | ⟨1, _⟩ => show win0_0.index t (1 : Fin 2) * 256 + 1 * l.val = l.val; omega

/-- The block of `w1` is the whole of it. -/
theorem iblk0_w (c : Dev nD) (t : Fin cfg0.N) (l : Fin 256) (k : Fin 64) :
    iblk0 V c 1 t (ix2 l k) = V c main_arg2 (ix2 l k) := by
  obtain ⟨-, -, e0, e1, -⟩ := idx0 t
  show V c main_arg2 (((cfg0.win 1).blk t).view.emb (ix2 l k)) = _
  refine congrArg _ (funext fun a => Fin.ext ?_)
  match a with
  | ⟨0, _⟩ => show win0_1.index t (0 : Fin 2) * 256 + 1 * l.val = l.val; omega
  | ⟨1, _⟩ => show win0_1.index t (1 : Fin 2) * 64 + 1 * k.val = k.val; omega

/-- The block of the bias row is the whole row. -/
theorem iblk0_b (c : Dev nD) (t : Fin cfg0.N) (k : Fin 64) :
    iblk0 V c 2 t (ix2 (0 : Fin 1) k) = V c main_v0 (ix2 (0 : Fin 1) k) := by
  obtain ⟨-, -, -, -, e0, e1, -⟩ := idx0 t
  show V c main_v0 (((cfg0.win 2).blk t).view.emb (ix2 (0 : Fin 1) k)) = _
  refine congrArg _ (funext fun a => Fin.ext ?_)
  match a with
  | ⟨0, _⟩ => show win0_2.index t (0 : Fin 2) * 1 + 1 * 0 = 0; omega
  | ⟨1, _⟩ => show win0_2.index t (1 : Fin 2) * 64 + 1 * k.val = k.val; omega

/-- An index of the result array is in point `t`'s block iff each coordinate is in the block's range on its axis. -/
theorem mem_blk0 (t : Fin cfg0.N) (i : S100000x64.Idx) :
    i ∈ ((cfg0.win 3).blk t).view.set ↔ ∀ a : Fin 2, win0_3.index t a * S2000x64.size a ≤ (i a).val ∧ (i a).val < win0_3.index t a * S2000x64.size a + S2000x64.size a := by
  show i ∈ ((View.whole main_v1).slice (win0_3.rect t)).set ↔ _
  rw [View.set_slice_whole, Rect.mem_set_unit]
  exact Iff.rfl

/-- Every row of the result array is in the block its quotient by 2000 names. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  let t : Fin cfg0.N := ⟨(i 0).val / 2000, by have := N_0; show (i 0).val / 2000 < grid0.N; omega⟩
  obtain ⟨-, -, -, -, -, -, e0, e1⟩ := idx0 t
  have ht : t.val = (i 0).val / 2000 := rfl
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 64 ≤ (i 1).val ∧ (i 1).val < win0_3.index t (1 : Fin 2) * 64 + 64; omega

/-- THE RESULT ARRAY: if the stored block is `G` on the block's rows whenever the loaded blocks are the arrays' entries on
    those rows, the array ends holding `G`. -/
theorem final0_of (c : Dev nD) (x0 : Vec F S100000x256 .f32) (x2 : Vec F S256x64 .f32) (xb : Vec F S1x64 .f32)
    (G : Vec F S100000x64 .f32)
    (h0 : V c main_arg0 = x0) (h2 : V c main_arg2 = x2) (hb : V c main_v0 = xb)
    (hG : ∀ (X0 : Vec F S2000x256 .f32) (X1 : Vec F S256x64 .f32) (X2 : Vec F S1x64 .f32) (b : Fin 50),
      (∀ (p : Fin 2000) (l : Fin 256), X0 (ix2 p l) = x0 (ix2 (grow b p) l)) →
      (∀ (l : Fin 256) (k : Fin 64), X1 (ix2 l k) = x2 (ix2 l k)) →
      (∀ k : Fin 64, X2 (ix2 (0 : Fin 1) k) = xb (ix2 (0 : Fin 1) k)) →
      ∀ (p : Fin 2000) (k : Fin 64), k0_pay1 X0 X1 X2 (ix2 p k) = G (ix2 (grow b p) k)) :
    (dat0 V c).arrAt 3 cfg0.N = G := by
  refine (dat0 V c).arrAt_eq_of_cover 3 G (fun t _ => ?_) cover0
  show (cfg0.win 3).cut (grid0.coords t) ((dat0 V c).after 3 t) = _
  rw [after0_3]
  unfold out0_3
  rw [View.canon_unit_zero off00]
  simp only [View.ld_unit_zero (S := S2000x256) off00, View.ld_unit_zero (S := S256x64) off00, View.ld_unit_zero (S := S1x64) off00]
  obtain ⟨-, -, -, -, -, -, e0, e1⟩ := idx0 t
  refine funext fun (j : S2000x64.Idx) => ?_
  show k0_pay1 (iblk0 V c 0 t) (iblk0 V c 1 t) (iblk0 V c 2 t) j = G (((cfg0.win 3).blk t).view.emb j)
  have hj : ((cfg0.win 3).blk t).view.emb j = ix2 (grow (blk0 t) (j 0)) (j 1) := by
    refine funext fun a => Fin.ext ?_
    match a with
    | ⟨0, _⟩ => show win0_3.index t (0 : Fin 2) * 2000 + 1 * (j 0).val = 2000 * t.val + (j 0).val; omega
    | ⟨1, _⟩ => show win0_3.index t (1 : Fin 2) * 64 + 1 * (j 1).val = (j 1).val; omega
  rw [hj, eq_ix2 j]
  exact hG _ _ _ (blk0 t)
    (fun p l => (iblk0_x V c t p l).trans (by rw [h0]))
    (fun l k => (iblk0_w V c t l k).trans (by rw [h2]))
    (fun k => (iblk0_b V c t k).trans (by rw [hb]))
    (j 0) (j 1)

end Cert.Bridge

end
-- ==== Proof.Region1Value.lean ====
/-
  The head region's result array as ONE function of its thirteen input arrays. Point `t` of the grid reads rows
  `2000·t … 2000·t + 1999` of the three feature arrays and the whole of every weight and bias array, and writes rows
  `2000·t … 2000·t + 1999` of the result. So if the stored block is, entry by entry, a function `G` of the arrays read at the
  block's rows, the fifty write-backs tile the array and it ends holding `G`.
-/
import proofs.«104437_j26439818674272_1_alg».proof.Proof.Gen.KernelIdeal.Frame
import proofs.«104437_j26439818674272_1_alg».proof.Proof.Rows
import Idealize.ShloMosaic.Lib.Pipeline.Value
import Idealize.ShloMosaic.Lib.ValueIdx

set_option maxRecDepth 16384

noncomputable section

namespace Cert.Bridge

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]

theorem off00' : (![0, 0] : Fin 2 → Nat) = fun _ => 0 := funext fun a => by fin_cases a <;> rfl

/-- A grid point of the head region as a block number. -/
def blk1 (t : Fin cfg1.N) : Fin 50 := ⟨t.val, by have h : t.val < grid1.N := t.isLt; have := N_1; omega⟩

/-- The printed index maps over the grid: the three feature windows and the result window sit at block `t`, every
    weight and bias window at block 0. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 2) = 0
    ∧ win1_11.index t (1 : Fin 2) = 0
    ∧ win1_12.index t (0 : Fin 2) = 0
    ∧ win1_12.index t (1 : Fin 2) = 0
    ∧ win1_13.index t (0 : Fin 2) = t.val
    ∧ win1_13.index t (1 : Fin 2) = 0 :=
  (by decide +kernel : ∀ t : Fin grid1.N, _)

variable (V : (c : Dev nD) → (b : Ref sig .tc) → Buf (Elt F) ((c : Thread nD τ).loc b))

/-! ## Each input window's block, read off its array -/

theorem iblk1_h (c : Dev nD) (t : Fin cfg1.N) (p : Fin 2000) (q : Fin 64) :
    iblk1 V c 0 t (ix2 p q) = V c main_v1 (ix2 (grow (blk1 t) p) q) := by
  obtain ⟨e0, e1, -⟩ := idx1 t
  show V c main_v1 (((cfg1.win 0).blk t).view.emb (ix2 p q)) = _
  refine congrArg _ (funext fun a => Fin.ext ?_)
  match a with
  | ⟨0, _⟩ => show win1_0.index t (0 : Fin 2) * 2000 + 1 * p.val = 2000 * t.val + p.val; omega
  | ⟨1, _⟩ => show win1_0.index t (1 : Fin 2) * 64 + 1 * q.val = q.val; omega

theorem iblk1_h1 (c : Dev nD) (t : Fin cfg1.N) (p : Fin 2000) (q : Fin 64) :
    iblk1 V c 1 t (ix2 p q) = V c main_v46 (ix2 (grow (blk1 t) p) q) := by
  obtain ⟨-, -, e0, e1, -⟩ := idx1 t
  show V c main_v46 (((cfg1.win 1).blk t).view.emb (ix2 p q)) = _
  refine congrArg _ (funext fun a => Fin.ext ?_)
  match a with
  | ⟨0, _⟩ => show win1_1.index t (0 : Fin 2) * 2000 + 1 * p.val = 2000 * t.val + p.val; omega
  | ⟨1, _⟩ => show win1_1.index t (1 : Fin 2) * 64 + 1 * q.val = q.val; omega

theorem iblk1_h2 (c : Dev nD) (t : Fin cfg1.N) (p : Fin 2000) (q : Fin 64) :
    iblk1 V c 2 t (ix2 p q) = V c main_v59 (ix2 (grow (blk1 t) p) q) := by
  obtain ⟨-, -, -, -, e0, e1, -⟩ := idx1 t
  show V c main_v59 (((cfg1.win 2).blk t).view.emb (ix2 p q)) = _
  refine congrArg _ (funext fun a => Fin.ext ?_)
  match a with
  | ⟨0, _⟩ => show win1_2.index t (0 : Fin 2) * 2000 + 1 * p.val = 2000 * t.val + p.val; omega
  | ⟨1, _⟩ => show win1_2.index t (1 : Fin 2) * 64 + 1 * q.val = q.val; omega

theorem iblk1_wp0 (c : Dev nD) (t : Fin cfg1.N) (p : Fin 64) (q : Fin 64) :
    iblk1 V c 3 t (ix2 p q) = V c main_arg4 (ix2 p q) := by
  obtain ⟨-, -, -, -, -, -, e0, e1, -⟩ := idx1 t
  show V c main_arg4 (((cfg1.win 3).blk t).view.emb (ix2 p q)) = _
  refine congrArg _ (funext fun a => Fin.ext ?_)
  match a with
  | ⟨0, _⟩ => show win1_3.index t (0 : Fin 2) * 64 + 1 * p.val = p.val; omega
  | ⟨1, _⟩ => show win1_3.index t (1 : Fin 2) * 64 + 1 * q.val = q.val; omega

theorem iblk1_bp0 (c : Dev nD) (t : Fin cfg1.N) (q : Fin 64) :
    iblk1 V c 4 t (ix2 (0 : Fin 1) q) = V c main_v63 (ix2 (0 : Fin 1) q) := by
  obtain ⟨-, -, -, -, -, -, -, -, e0, e1, -⟩ := idx1 t
  show V c main_v63 (((cfg1.win 4).blk t).view.emb (ix2 (0 : Fin 1) q)) = _
  refine congrArg _ (funext fun a => Fin.ext ?_)
  match a with
  | ⟨0, _⟩ => show win1_4.index t (0 : Fin 2) * 1 + 1 * 0 = 0; omega
  | ⟨1, _⟩ => show win1_4.index t (1 : Fin 2) * 64 + 1 * q.val = q.val; omega

theorem iblk1_wp1 (c : Dev nD) (t : Fin cfg1.N) (p : Fin 64) (q : Fin 64) :
    iblk1 V c 5 t (ix2 p q) = V c main_arg6 (ix2 p q) := by
  obtain ⟨-, -, -, -, -, -, -, -, -, -, e0, e1, -⟩ := idx1 t
  show V c main_arg6 (((cfg1.win 5).blk t).view.emb (ix2 p q)) = _
  refine congrArg _ (funext fun a => Fin.ext ?_)
  match a with
  | ⟨0, _⟩ => show win1_5.index t (0 : Fin 2) * 64 + 1 * p.val = p.val; omega
  | ⟨1, _⟩ => show win1_5.index t (1 : Fin 2) * 64 + 1 * q.val = q.val; omega

theorem iblk1_bp1 (c : Dev nD) (t : Fin cfg1.N) (q : Fin 64) :
    iblk1 V c 6 t (ix2 (0 : Fin 1) q) = V c main_v64 (ix2 (0 : Fin 1) q) := by
  obtain ⟨-, -, -, -, -, -, -, -, -, -, -, -, e0, e1, -⟩ := idx1 t
  show V c main_v64 (((cfg1.win 6).blk t).view.emb (ix2 (0 : Fin 1) q)) = _
  refine congrArg _ (funext fun a => Fin.ext ?_)
  match a with
  | ⟨0, _⟩ => show win1_6.index t (0 : Fin 2) * 1 + 1 * 0 = 0; omega
  | ⟨1, _⟩ => show win1_6.index t (1 : Fin 2) * 64 + 1 * q.val = q.val; omega

theorem iblk1_wp2 (c : Dev nD) (t : Fin cfg1.N) (p : Fin 64) (q : Fin 64) :
    iblk1 V c 7 t (ix2 p q) = V c main_arg8 (ix2 p q) := by
  obtain ⟨-, -, -, -, -, -, -, -, -, -, -, -, -, -, e0, e1, -⟩ := idx1 t
  show V c main_arg8 (((cfg1.win 7).blk t).view.emb (ix2 p q)) = _
  refine congrArg _ (funext fun a => Fin.ext ?_)
  match a with
  | ⟨0, _⟩ => show win1_7.index t (0 : Fin 2) * 64 + 1 * p.val = p.val; omega
  | ⟨1, _⟩ => show win1_7.index t (1 : Fin 2) * 64 + 1 * q.val = q.val; omega

theorem iblk1_bp2 (c : Dev nD) (t : Fin cfg1.N) (q : Fin 64) :
    iblk1 V c 8 t (ix2 (0 : Fin 1) q) = V c main_v65 (ix2 (0 : Fin 1) q) := by
  obtain ⟨-, -, -, -, -, -, -, -, -, -, -, -, -, -, -, -, e0, e1, -⟩ := idx1 t
  show V c main_v65 (((cfg1.win 8).blk t).view.emb (ix2 (0 : Fin 1) q)) = _
  refine congrArg _ (funext fun a => Fin.ext ?_)
  match a with
  | ⟨0, _⟩ => show win1_8.index t (0 : Fin 2) * 1 + 1 * 0 = 0; omega
  | ⟨1, _⟩ => show win1_8.index t (1 : Fin 2) * 64 + 1 * q.val = q.val; omega

theorem iblk1_w2a (c : Dev nD) (t : Fin cfg1.N) (p : Fin 64) (q : Fin 40) :
    iblk1 V c 9 t (ix2 p q) = V c main_v60 (ix2 p q) := by
  obtain ⟨-, -, -, -, -, -, -, -, -, -, -, -, -, -, -, -, -, -, e0, e1, -⟩ := idx1 t
  show V c main_v60 (((cfg1.win 9).blk t).view.emb (ix2 p q)) = _
  refine congrArg _ (funext fun a => Fin.ext ?_)
  match a with
  | ⟨0, _⟩ => show win1_9.index t (0 : Fin 2) * 64 + 1 * p.val = p.val; omega
  | ⟨1, _⟩ => show win1_9.index t (1 : Fin 2) * 40 + 1 * q.val = q.val; omega

theorem iblk1_w2b (c : Dev nD) (t : Fin cfg1.N) (p : Fin 64) (q : Fin 40) :
    iblk1 V c 10 t (ix2 p q) = V c main_v61 (ix2 p q) := by
  obtain ⟨-, -, -, -, -, -, -, -, -, -, -, -, -, -, -, -, -, -, -, -, e0, e1, -⟩ := idx1 t
  show V c main_v61 (((cfg1.win 10).blk t).view.emb (ix2 p q)) = _
  refine congrArg _ (funext fun a => Fin.ext ?_)
  match a with
  | ⟨0, _⟩ => show win1_10.index t (0 : Fin 2) * 64 + 1 * p.val = p.val; omega
  | ⟨1, _⟩ => show win1_10.index t (1 : Fin 2) * 40 + 1 * q.val = q.val; omega

theorem iblk1_w2c (c : Dev nD) (t : Fin cfg1.N) (p : Fin 64) (q : Fin 40) :
    iblk1 V c 11 t (ix2 p q) = V c main_v62 (ix2 p q) := by
  obtain ⟨-, -, -, -, -, -, -, -, -, -, -, -, -, -, -, -, -, -, -, -, -, -, e0, e1, -⟩ := idx1 t
  show V c main_v62 (((cfg1.win 11).blk t).view.emb (ix2 p q)) = _
  refine congrArg _ (funext fun a => Fin.ext ?_)
  match a with
  | ⟨0, _⟩ => show win1_11.index t (0 : Fin 2) * 64 + 1 * p.val = p.val; omega
  | ⟨1, _⟩ => show win1_11.index t (1 : Fin 2) * 40 + 1 * q.val = q.val; omega

theorem iblk1_b2 (c : Dev nD) (t : Fin cfg1.N) (q : Fin 40) :
    iblk1 V c 12 t (ix2 (0 : Fin 1) q) = V c main_v66 (ix2 (0 : Fin 1) q) := by
  obtain ⟨-, -, -, -, -, -, -, -, -, -, -, -, -, -, -, -, -, -, -, -, -, -, -, -, e0, e1, -⟩ := idx1 t
  show V c main_v66 (((cfg1.win 12).blk t).view.emb (ix2 (0 : Fin 1) q)) = _
  refine congrArg _ (funext fun a => Fin.ext ?_)
  match a with
  | ⟨0, _⟩ => show win1_12.index t (0 : Fin 2) * 1 + 1 * 0 = 0; omega
  | ⟨1, _⟩ => show win1_12.index t (1 : Fin 2) * 40 + 1 * q.val = q.val; omega

/-! ## The result window's blocks tile the array -/

/-- An index of the result array is in point `t`'s block iff each coordinate is in the block's range on its axis. -/
theorem mem_blk1 (t : Fin cfg1.N) (i : S100000x40.Idx) :
    i ∈ ((cfg1.win 13).blk t).view.set ↔ ∀ a : Fin 2, win1_13.index t a * S2000x40.size a ≤ (i a).val ∧ (i a).val < win1_13.index t a * S2000x40.size a + S2000x40.size a := by
  show i ∈ ((View.whole main_v67).slice (win1_13.rect t)).set ↔ _
  rw [View.set_slice_whole, Rect.mem_set_unit]
  exact Iff.rfl

/-- Every row of the result array is in the block its quotient by 2000 names. -/
theorem cover1 (i : S100000x40.Idx) : ∃ t : Fin cfg1.N, (cfg1.win 13).flush t = true ∧ i ∈ ((cfg1.win 13).blk t).view.set := by
  have hi0 : (i 0).val < 100000 := (i 0).isLt
  have hi1 : (i 1).val < 40 := (i 1).isLt
  let t : Fin cfg1.N := ⟨(i 0).val / 2000, by have := N_1; show (i 0).val / 2000 < grid1.N; omega⟩
  obtain ⟨-, -, -, -, -, -, -, -, -, -, -, -, -, -, -, -, -, -, -, -, -, -, -, -, -, -, e0, e1⟩ := idx1 t
  have ht : t.val = (i 0).val / 2000 := rfl
  refine ⟨t, flush1_13 t, ?_⟩
  rw [mem_blk1]
  intro a
  match a with
  | ⟨0, _⟩ => show win1_13.index t (0 : Fin 2) * 2000 ≤ (i 0).val ∧ (i 0).val < win1_13.index t (0 : Fin 2) * 2000 + 2000; omega
  | ⟨1, _⟩ => show win1_13.index t (1 : Fin 2) * 40 ≤ (i 1).val ∧ (i 1).val < win1_13.index t (1 : Fin 2) * 40 + 40; omega

/-- THE RESULT ARRAY: if the stored block is `G` on the block's rows whenever the loaded blocks are the arrays' entries on
    those rows, the array ends holding `G`. -/
theorem final1_of (c : Dev nD) (xh : Vec F S100000x64 .f32) (xh1 : Vec F S100000x64 .f32) (xh2 : Vec F S100000x64 .f32) (xwp0 : Vec F S64x64 .f32) (xbp0 : Vec F S1x64 .f32) (xwp1 : Vec F S64x64 .f32) (xbp1 : Vec F S1x64 .f32) (xwp2 : Vec F S64x64 .f32) (xbp2 : Vec F S1x64 .f32) (xw2a : Vec F S64x40 .f32) (xw2b : Vec F S64x40 .f32) (xw2c : Vec F S64x40 .f32) (xb2 : Vec F S1x40 .f32)
    (G : Vec F S100000x40 .f32)
    (eh : V c main_v1 = xh) (eh1 : V c main_v46 = xh1) (eh2 : V c main_v59 = xh2) (ewp0 : V c main_arg4 = xwp0) (ebp0 : V c main_v63 = xbp0) (ewp1 : V c main_arg6 = xwp1) (ebp1 : V c main_v64 = xbp1) (ewp2 : V c main_arg8 = xwp2) (ebp2 : V c main_v65 = xbp2) (ew2a : V c main_v60 = xw2a) (ew2b : V c main_v61 = xw2b) (ew2c : V c main_v62 = xw2c) (eb2 : V c main_v66 = xb2)
    (hG : ∀ (Xh : Vec F S2000x64 .f32) (Xh1 : Vec F S2000x64 .f32) (Xh2 : Vec F S2000x64 .f32) (Xwp0 : Vec F S64x64 .f32) (Xbp0 : Vec F S1x64 .f32) (Xwp1 : Vec F S64x64 .f32) (Xbp1 : Vec F S1x64 .f32) (Xwp2 : Vec F S64x64 .f32) (Xbp2 : Vec F S1x64 .f32) (Xw2a : Vec F S64x40 .f32) (Xw2b : Vec F S64x40 .f32) (Xw2c : Vec F S64x40 .f32) (Xb2 : Vec F S1x40 .f32) (b : Fin 50),
      (∀ (p : Fin 2000) (q : Fin 64), Xh (ix2 p q) = xh (ix2 (grow b p) q)) →
      (∀ (p : Fin 2000) (q : Fin 64), Xh1 (ix2 p q) = xh1 (ix2 (grow b p) q)) →
      (∀ (p : Fin 2000) (q : Fin 64), Xh2 (ix2 p q) = xh2 (ix2 (grow b p) q)) →
      (∀ (p : Fin 64) (q : Fin 64), Xwp0 (ix2 p q) = xwp0 (ix2 p q)) →
      (∀ q : Fin 64, Xbp0 (ix2 (0 : Fin 1) q) = xbp0 (ix2 (0 : Fin 1) q)) →
      (∀ (p : Fin 64) (q : Fin 64), Xwp1 (ix2 p q) = xwp1 (ix2 p q)) →
      (∀ q : Fin 64, Xbp1 (ix2 (0 : Fin 1) q) = xbp1 (ix2 (0 : Fin 1) q)) →
      (∀ (p : Fin 64) (q : Fin 64), Xwp2 (ix2 p q) = xwp2 (ix2 p q)) →
      (∀ q : Fin 64, Xbp2 (ix2 (0 : Fin 1) q) = xbp2 (ix2 (0 : Fin 1) q)) →
      (∀ (p : Fin 64) (q : Fin 40), Xw2a (ix2 p q) = xw2a (ix2 p q)) →
      (∀ (p : Fin 64) (q : Fin 40), Xw2b (ix2 p q) = xw2b (ix2 p q)) →
      (∀ (p : Fin 64) (q : Fin 40), Xw2c (ix2 p q) = xw2c (ix2 p q)) →
      (∀ q : Fin 40, Xb2 (ix2 (0 : Fin 1) q) = xb2 (ix2 (0 : Fin 1) q)) →
      ∀ (p : Fin 2000) (j : Fin 40), k1_pay1 (k1_pay2 Xh Xwp0 Xbp0) (k1_pay3 Xh1 Xwp1 Xbp1) (k1_pay4 Xh2 Xwp2 Xbp2) (k1_pay5 (F := F)) Xw2a Xw2b Xw2c Xb2 (ix2 p j) = G (ix2 (grow b p) j)) :
    (dat1 V c).arrAt 13 cfg1.N = G := by
  refine (dat1 V c).arrAt_eq_of_cover 13 G (fun t _ => ?_) cover1
  show (cfg1.win 13).cut (grid1.coords t) ((dat1 V c).after 13 t) = _
  rw [after1_13]
  unfold out1_13
  rw [View.canon_unit_zero off00']
  simp only [View.ld_unit_zero (S := S2000x64) off00', View.ld_unit_zero (S := S64x64) off00', View.ld_unit_zero (S := S1x64) off00',
    View.ld_unit_zero (S := S64x40) off00', View.ld_unit_zero (S := S1x40) off00']
  obtain ⟨-, -, -, -, -, -, -, -, -, -, -, -, -, -, -, -, -, -, -, -, -, -, -, -, -, -, e0, e1⟩ := idx1 t
  refine funext fun (j : S2000x40.Idx) => ?_
  show k1_pay1 (k1_pay2 (iblk1 V c 0 t) (iblk1 V c 3 t) (iblk1 V c 4 t)) (k1_pay3 (iblk1 V c 1 t) (iblk1 V c 5 t) (iblk1 V c 6 t)) (k1_pay4 (iblk1 V c 2 t) (iblk1 V c 7 t) (iblk1 V c 8 t)) (k1_pay5 (F := F)) (iblk1 V c 9 t) (iblk1 V c 10 t) (iblk1 V c 11 t) (iblk1 V c 12 t) j = G (((cfg1.win 13).blk t).view.emb j)
  have hj : ((cfg1.win 13).blk t).view.emb j = ix2 (grow (blk1 t) (j 0)) (j 1) := by
    refine funext fun a => Fin.ext ?_
    match a with
    | ⟨0, _⟩ => show win1_13.index t (0 : Fin 2) * 2000 + 1 * (j 0).val = 2000 * t.val + (j 0).val; omega
    | ⟨1, _⟩ => show win1_13.index t (1 : Fin 2) * 40 + 1 * (j 1).val = (j 1).val; omega
  rw [hj, eq_ix2 j]
  exact hG _ _ _ _ _ _ _ _ _ _ _ _ _ (blk1 t)
    (fun p q => (iblk1_h V c t p q).trans (by rw [eh]))
    (fun p q => (iblk1_h1 V c t p q).trans (by rw [eh1]))
    (fun p q => (iblk1_h2 V c t p q).trans (by rw [eh2]))
    (fun p q => (iblk1_wp0 V c t p q).trans (by rw [ewp0]))
    (fun q => (iblk1_bp0 V c t q).trans (by rw [ebp0]))
    (fun p q => (iblk1_wp1 V c t p q).trans (by rw [ewp1]))
    (fun q => (iblk1_bp1 V c t q).trans (by rw [ebp1]))
    (fun p q => (iblk1_wp2 V c t p q).trans (by rw [ewp2]))
    (fun q => (iblk1_bp2 V c t q).trans (by rw [ebp2]))
    (fun p q => (iblk1_w2a V c t p q).trans (by rw [ew2a]))
    (fun p q => (iblk1_w2b V c t p q).trans (by rw [ew2b]))
    (fun p q => (iblk1_w2c V c t p q).trans (by rw [ew2c]))
    (fun q => (iblk1_b2 V c t q).trans (by rw [eb2]))
    (j 0) (j 1)

end Cert.Bridge

end
-- ==== Proof.Propagate.lean ====
/-
  One step of feature propagation over the graph, as ONE function of a feature array and the edge list. The edges are
  the given 1,600,000 (source, destination) pairs followed by one self-loop per node. Each edge carries the weight
  `d(src)^(-1/2) · d(dst)^(-1/2)`, `d` the number of edges arriving at a node (the weight is taken as zero where that number is
  not positive). The step gathers the feature rows at the edges' sources, scales each by its edge's weight, and adds them
  into the rows of the edges' destinations, starting from zero. The reference's once- and twice-propagated arrays are this
  function applied once and twice to its hidden layer; only the feature array varies, the edge data are the same terms.
-/
import proofs.«104437_j26439818674272_1_alg».proof.Proof.RefRead

noncomputable section

namespace Cert.Bridge

open Idealize.ShloMosaic Cert.ReferenceIdeal Cert.ReferenceIdeal.ReadP

variable {F : FTy → Type} [FloatOps F]

/-- Features `h` propagated once along the edges `x1`: gather at the sources, scale by the edge weights, add at the destinations. -/
def propagate (h : (⟨S100000x64, .f32⟩ : BufTy).Contents (Elt F)) (x1 : (⟨S2x1600000, .i32⟩ : BufTy).Contents (Elt F)) : (⟨S100000x64, .f32⟩ : BufTy).Contents (Elt F) :=
  Host.scatterAdd scatter_S100000x64_S1700000x1_S1700000x64_1_0_0_1 (val_main_v47 (F := F)) (val_main_v48 (F := F) x1)
    (mulf (val_main_v45 (F := F) x1) (Host.gather gather_S100000x64_S1700000x1_S1700000x64_1_0_n_n_0_1_164 h (val_main_v43 (F := F) x1)))

/-- The reference's once-propagated array is one step from its hidden layer. -/
theorem val_main_v49_eq (x0 : (⟨S100000x256, .f32⟩ : BufTy).Contents (Elt F)) (x1 : (⟨S2x1600000, .i32⟩ : BufTy).Contents (Elt F)) (x2 : (⟨S256x64, .f32⟩ : BufTy).Contents (Elt F)) (x3 : (⟨S64, .f32⟩ : BufTy).Contents (Elt F)) :
    val_main_v49 (F := F) x0 x1 x2 x3 = propagate (val_main_v4 (F := F) x0 x2 x3) x1 := rfl

/-- Its twice-propagated array is one more step: the second step's zero array, destination indices, edge weights and
    source indices are printed again under other names, with the same terms. -/
theorem val_main_v62_eq (x0 : (⟨S100000x256, .f32⟩ : BufTy).Contents (Elt F)) (x1 : (⟨S2x1600000, .i32⟩ : BufTy).Contents (Elt F)) (x2 : (⟨S256x64, .f32⟩ : BufTy).Contents (Elt F)) (x3 : (⟨S64, .f32⟩ : BufTy).Contents (Elt F)) :
    val_main_v62 (F := F) x0 x1 x2 x3 = propagate (val_main_v49 (F := F) x0 x1 x2 x3) x1 := rfl

end Cert.Bridge

end
-- ==== Proof.Glue.lean ====
/-
  What the head kernel's thirteen input arrays hold when its region is entered, and what the first kernel's three hold.
  Between the two regions @main runs three stretches of host operations on the first region's result `h` and on the edge
  list: the first builds the source and destination index arrays (the edges followed by one self-loop per node) and the
  inverse square roots of the in-degrees, the second selects zero where the degree is not positive, the third forms the
  edge weights and propagates `h` once and twice, slices the last weight matrix into its three 64-row blocks and gives the
  biases a leading unit axis. Each stretch is read from an arbitrary starting valuation; the index arrays and the weights'
  ingredients are named as the reference's own stages, since the two programs print the same operations for them, and the
  two propagated arrays are one and two steps of `propagate` from the first region's result.
-/
import proofs.«104437_j26439818674272_1_alg».proof.Proof.Gen.KernelIdeal.Frame
import proofs.«104437_j26439818674272_1_alg».proof.Proof.Propagate
import Idealize.ShloMosaic.Lib.StableHlo.Run

set_option maxRecDepth 16384

noncomputable section

namespace Cert.Bridge

open Idealize.ShloMosaic Idealize.ShloMosaic.TcCoe Idealize.SL.Sem Idealize.ShloMosaic.StableHlo
open Cert.KernelIdeal Cert.KernelIdeal.Gen

variable {F : FTy → Type} [FloatOps F]

/-! ## The three stretches between the regions, each from any starting contents `Y` -/

section Stretches

variable (Y : Valuation τ sig (Elt F))

/-- The source indices: the edge list's first row followed by the node numbers. -/
theorem stretch1_src : StableHlo.after hostOps1 Y (Proc.devRef .tc main_v5) = Cert.ReferenceIdeal.ReadP.val_main_v8 (F := F) (Y (Proc.devRef .tc main_arg1)) := by
  after_results; rfl
/-- The destination indices: the edge list's second row followed by the node numbers. -/
theorem stretch1_dst : StableHlo.after hostOps1 Y (Proc.devRef .tc main_v8) = Cert.ReferenceIdeal.ReadP.val_main_v11 (F := F) (Y (Proc.devRef .tc main_arg1)) := by
  after_results; rfl
/-- Where the in-degree is positive. -/
theorem stretch1_pos : StableHlo.after hostOps1 Y (Proc.devRef .tc main_v14) = Cert.ReferenceIdeal.ReadP.val_main_v17 (F := F) (Y (Proc.devRef .tc main_arg1)) := by
  after_results; rfl
/-- The inverse square root of the in-degree clipped below at the small positive constant. -/
theorem stretch1_rsqrt : StableHlo.after hostOps1 Y (Proc.devRef .tc main_v17) = Cert.ReferenceIdeal.ReadP.val_main_v20 (F := F) (Y (Proc.devRef .tc main_arg1)) := by
  after_results; rfl
/-- The zero the selection falls back to. -/
theorem stretch1_zero : StableHlo.after hostOps1 Y (Proc.devRef .tc main_cst_3) = Cert.ReferenceIdeal.ReadP.val_main_cst_3 (F := F) := by
  after_results; rfl
/-- The first stretch writes neither the first region's result nor an argument it does not produce. -/
theorem stretch1_v1 : StableHlo.after hostOps1 Y (Proc.devRef .tc main_v1) = Y (Proc.devRef .tc main_v1) := by after_results
theorem stretch1_arg1 : StableHlo.after hostOps1 Y (Proc.devRef .tc main_arg1) = Y (Proc.devRef .tc main_arg1) := by after_results
theorem stretch1_arg4 : StableHlo.after hostOps1 Y (Proc.devRef .tc main_arg4) = Y (Proc.devRef .tc main_arg4) := by after_results
theorem stretch1_arg5 : StableHlo.after hostOps1 Y (Proc.devRef .tc main_arg5) = Y (Proc.devRef .tc main_arg5) := by after_results
theorem stretch1_arg6 : StableHlo.after hostOps1 Y (Proc.devRef .tc main_arg6) = Y (Proc.devRef .tc main_arg6) := by after_results
theorem stretch1_arg7 : StableHlo.after hostOps1 Y (Proc.devRef .tc main_arg7) = Y (Proc.devRef .tc main_arg7) := by after_results
theorem stretch1_arg8 : StableHlo.after hostOps1 Y (Proc.devRef .tc main_arg8) = Y (Proc.devRef .tc main_arg8) := by after_results
theorem stretch1_arg9 : StableHlo.after hostOps1 Y (Proc.devRef .tc main_arg9) = Y (Proc.devRef .tc main_arg9) := by after_results
theorem stretch1_arg10 : StableHlo.after hostOps1 Y (Proc.devRef .tc main_arg10) = Y (Proc.devRef .tc main_arg10) := by after_results
theorem stretch1_arg11 : StableHlo.after hostOps1 Y (Proc.devRef .tc main_arg11) = Y (Proc.devRef .tc main_arg11) := by after_results

/-- The second stretch: the inverse square roots where the degree is positive, zero elsewhere, given the first stretch's three ingredients. -/
theorem stretch2_dis (x1 : (⟨Cert.ReferenceIdeal.S2x1600000, .i32⟩ : BufTy).Contents (Elt F))
    (h14 : Y (Proc.devRef .tc main_v14) = Cert.ReferenceIdeal.ReadP.val_main_v17 (F := F) x1) (h17 : Y (Proc.devRef .tc main_v17) = Cert.ReferenceIdeal.ReadP.val_main_v20 (F := F) x1)
    (h3 : Y (Proc.devRef .tc main_cst_3) = Cert.ReferenceIdeal.ReadP.val_main_cst_3 (F := F)) :
    StableHlo.after hostOps1_1 Y (Proc.devRef .tc main_v18) = Cert.ReferenceIdeal.ReadP.val_main_v21 (F := F) x1 := by
  after_results
  rw [h14, h17, h3]; rfl
theorem stretch2_v5 : StableHlo.after hostOps1_1 Y (Proc.devRef .tc main_v5) = Y (Proc.devRef .tc main_v5) := by after_results
theorem stretch2_v8 : StableHlo.after hostOps1_1 Y (Proc.devRef .tc main_v8) = Y (Proc.devRef .tc main_v8) := by after_results
theorem stretch2_v1 : StableHlo.after hostOps1_1 Y (Proc.devRef .tc main_v1) = Y (Proc.devRef .tc main_v1) := by after_results
theorem stretch2_arg1 : StableHlo.after hostOps1_1 Y (Proc.devRef .tc main_arg1) = Y (Proc.devRef .tc main_arg1) := by after_results
theorem stretch2_arg4 : StableHlo.after hostOps1_1 Y (Proc.devRef .tc main_arg4) = Y (Proc.devRef .tc main_arg4) := by after_results
theorem stretch2_arg5 : StableHlo.after hostOps1_1 Y (Proc.devRef .tc main_arg5) = Y (Proc.devRef .tc main_arg5) := by after_results
theorem stretch2_arg6 : StableHlo.after hostOps1_1 Y (Proc.devRef .tc main_arg6) = Y (Proc.devRef .tc main_arg6) := by after_results
theorem stretch2_arg7 : StableHlo.after hostOps1_1 Y (Proc.devRef .tc main_arg7) = Y (Proc.devRef .tc main_arg7) := by after_results
theorem stretch2_arg8 : StableHlo.after hostOps1_1 Y (Proc.devRef .tc main_arg8) = Y (Proc.devRef .tc main_arg8) := by after_results
theorem stretch2_arg9 : StableHlo.after hostOps1_1 Y (Proc.devRef .tc main_arg9) = Y (Proc.devRef .tc main_arg9) := by after_results
theorem stretch2_arg10 : StableHlo.after hostOps1_1 Y (Proc.devRef .tc main_arg10) = Y (Proc.devRef .tc main_arg10) := by after_results
theorem stretch2_arg11 : StableHlo.after hostOps1_1 Y (Proc.devRef .tc main_arg11) = Y (Proc.devRef .tc main_arg11) := by after_results

set_option maxHeartbeats 2000000 in
/-- The third stretch, once: from the index arrays and the per-node factors, the edge weights; the rows of the first
    region's result gathered at the sources, scaled, and added at the destinations. -/
theorem stretch3_once (x1 : (⟨Cert.ReferenceIdeal.S2x1600000, .i32⟩ : BufTy).Contents (Elt F))
    (h5 : Y (Proc.devRef .tc main_v5) = Cert.ReferenceIdeal.ReadP.val_main_v8 (F := F) x1) (h8 : Y (Proc.devRef .tc main_v8) = Cert.ReferenceIdeal.ReadP.val_main_v11 (F := F) x1)
    (h18 : Y (Proc.devRef .tc main_v18) = Cert.ReferenceIdeal.ReadP.val_main_v21 (F := F) x1) :
    StableHlo.after hostOps1_2 Y (Proc.devRef .tc main_v46) = propagate (F := F) (Y (Proc.devRef .tc main_v1)) x1 := by
  after_results_simp
  rw [h5, h8, h18]; rfl

set_option maxHeartbeats 4000000 in
/-- The third stretch, twice: the once-propagated array propagated again with the same weights. -/
theorem stretch3_twice (x1 : (⟨Cert.ReferenceIdeal.S2x1600000, .i32⟩ : BufTy).Contents (Elt F))
    (h5 : Y (Proc.devRef .tc main_v5) = Cert.ReferenceIdeal.ReadP.val_main_v8 (F := F) x1) (h8 : Y (Proc.devRef .tc main_v8) = Cert.ReferenceIdeal.ReadP.val_main_v11 (F := F) x1)
    (h18 : Y (Proc.devRef .tc main_v18) = Cert.ReferenceIdeal.ReadP.val_main_v21 (F := F) x1) :
    StableHlo.after hostOps1_2 Y (Proc.devRef .tc main_v59) = propagate (F := F) (propagate (F := F) (Y (Proc.devRef .tc main_v1)) x1) x1 := by
  after_results_simp
  rw [h5, h8, h18]; rfl

theorem stretch3_v1 : StableHlo.after hostOps1_2 Y (Proc.devRef .tc main_v1) = Y (Proc.devRef .tc main_v1) := by after_results_simp
theorem stretch3_arg4 : StableHlo.after hostOps1_2 Y (Proc.devRef .tc main_arg4) = Y (Proc.devRef .tc main_arg4) := by after_results_simp
theorem stretch3_arg6 : StableHlo.after hostOps1_2 Y (Proc.devRef .tc main_arg6) = Y (Proc.devRef .tc main_arg6) := by after_results_simp
theorem stretch3_arg8 : StableHlo.after hostOps1_2 Y (Proc.devRef .tc main_arg8) = Y (Proc.devRef .tc main_arg8) := by after_results_simp
/-- The last weight matrix's three blocks of 64 rows. -/
theorem stretch3_w2a : StableHlo.after hostOps1_2 Y (Proc.devRef .tc main_v60) = extractStridedSlice S64x40 ![0, 0] (Y (Proc.devRef .tc main_arg10)) slices_S192x40_S64x40_0_0 := by
  after_results_simp
theorem stretch3_w2b : StableHlo.after hostOps1_2 Y (Proc.devRef .tc main_v61) = extractStridedSlice S64x40 ![64, 0] (Y (Proc.devRef .tc main_arg10)) slices_S192x40_S64x40_64_0 := by
  after_results_simp
theorem stretch3_w2c : StableHlo.after hostOps1_2 Y (Proc.devRef .tc main_v62) = extractStridedSlice S64x40 ![128, 0] (Y (Proc.devRef .tc main_arg10)) slices_S192x40_S64x40_128_0 := by
  after_results_simp
/-- The four biases with a leading unit axis. -/
theorem stretch3_bp0 : StableHlo.after hostOps1_2 Y (Proc.devRef .tc main_v63) = shapeCast S1x64 (Y (Proc.devRef .tc main_arg5)) shapeCasts_S64_S1x64 := by
  after_results_simp; rfl
theorem stretch3_bp1 : StableHlo.after hostOps1_2 Y (Proc.devRef .tc main_v64) = shapeCast S1x64 (Y (Proc.devRef .tc main_arg7)) shapeCasts_S64_S1x64 := by
  after_results_simp; rfl
theorem stretch3_bp2 : StableHlo.after hostOps1_2 Y (Proc.devRef .tc main_v65) = shapeCast S1x64 (Y (Proc.devRef .tc main_arg9)) shapeCasts_S64_S1x64 := by
  after_results_simp; rfl
theorem stretch3_b2 : StableHlo.after hostOps1_2 Y (Proc.devRef .tc main_v66) = shapeCast S1x40 (Y (Proc.devRef .tc main_arg11)) shapeCasts_S40_S1x40 := by
  after_results_simp; rfl

end Stretches

variable (m : (ℓ : Loc nD τ sig) → Buf (Elt F) ℓ) (ρ : Dev nD → PrngReg)

/-! ## The first region's entry -/

theorem V1_arg0 (c : Dev nD) : V1 m ρ c main_arg0 = m ((c : Thread nD τ).loc main_arg0) := by
  show StableHlo.after hostOps0 (W0 m ρ c) (Proc.devRef .tc main_arg0) = _
  after_results
theorem V1_arg2 (c : Dev nD) : V1 m ρ c main_arg2 = m ((c : Thread nD τ).loc main_arg2) := by
  show StableHlo.after hostOps0 (W0 m ρ c) (Proc.devRef .tc main_arg2) = _
  after_results
/-- The first bias with a leading unit axis. -/
theorem V1_v0 (c : Dev nD) : V1 m ρ c main_v0 = shapeCast S1x64 (m ((c : Thread nD τ).loc main_arg3)) shapeCasts_S64_S1x64 := by
  show StableHlo.after hostOps0 (W0 m ρ c) (Proc.devRef .tc main_v0) = _
  after_results
  rfl

/-! ## The first region's exit -/

/-- The result array is what the first pipeline's write-backs leave. -/
theorem W2_v1 (c : Dev nD) : W2 m ρ c (Proc.devRef .tc main_v1) = (dat0 (V1 m ρ) c).arrAt 3 cfg0.N := W2_arr m ρ c 3
theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)
theorem W2_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)
theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)
theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)
theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)
theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results)
theorem W2_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results)
theorem W2_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results)
theorem W2_arg11 (c : Dev nD) : W2 m ρ c (Proc.devRef .tc main_arg11) = m ((c : Thread nD τ).loc main_arg11) :=
  (W2_of_ne m ρ c main_arg11 (by decide)).trans (by
    show StableHlo.after hostOps0 (W0 m ρ c) (Proc.devRef .tc main_arg11) = _
    after_results)

/-! ## The head region's entry -/

/-- The edge list at the second stretch's start and at the third's. -/
theorem W3_arg1 (c : Dev nD) : W3 m ρ c (Proc.devRef .tc main_arg1) = m ((c : Thread nD τ).loc main_arg1) := (stretch1_arg1 (W2 m ρ c)).trans (W2_arg1 m ρ c)

theorem W4_src (c : Dev nD) : W4 m ρ c (Proc.devRef .tc main_v5) = Cert.ReferenceIdeal.ReadP.val_main_v8 (F := F) (m ((c : Thread nD τ).loc main_arg1)) :=
  (stretch2_v5 (W3 m ρ c)).trans ((stretch1_src (W2 m ρ c)).trans (by rw [W2_arg1]))
theorem W4_dst (c : Dev nD) : W4 m ρ c (Proc.devRef .tc main_v8) = Cert.ReferenceIdeal.ReadP.val_main_v11 (F := F) (m ((c : Thread nD τ).loc main_arg1)) :=
  (stretch2_v8 (W3 m ρ c)).trans ((stretch1_dst (W2 m ρ c)).trans (by rw [W2_arg1]))
theorem W4_dis (c : Dev nD) : W4 m ρ c (Proc.devRef .tc main_v18) = Cert.ReferenceIdeal.ReadP.val_main_v21 (F := F) (m ((c : Thread nD τ).loc main_arg1)) :=
  stretch2_dis (W3 m ρ c) _ ((stretch1_pos (W2 m ρ c)).trans (by rw [W2_arg1])) ((stretch1_rsqrt (W2 m ρ c)).trans (by rw [W2_arg1]))
    (stretch1_zero (W2 m ρ c))
/-- The first region's result is carried unchanged to the head region's entry. -/
theorem W4_v1 (c : Dev nD) : W4 m ρ c (Proc.devRef .tc main_v1) = (dat0 (V1 m ρ) c).arrAt 3 cfg0.N :=
  (stretch2_v1 (W3 m ρ c)).trans ((stretch1_v1 (W2 m ρ c)).trans (W2_v1 m ρ c))
theorem W4_arg4 (c : Dev nD) : W4 m ρ c (Proc.devRef .tc main_arg4) = m ((c : Thread nD τ).loc main_arg4) :=
  (stretch2_arg4 (W3 m ρ c)).trans ((stretch1_arg4 (W2 m ρ c)).trans (W2_arg4 m ρ c))
theorem W4_arg5 (c : Dev nD) : W4 m ρ c (Proc.devRef .tc main_arg5) = m ((c : Thread nD τ).loc main_arg5) :=
  (stretch2_arg5 (W3 m ρ c)).trans ((stretch1_arg5 (W2 m ρ c)).trans (W2_arg5 m ρ c))
theorem W4_arg6 (c : Dev nD) : W4 m ρ c (Proc.devRef .tc main_arg6) = m ((c : Thread nD τ).loc main_arg6) :=
  (stretch2_arg6 (W3 m ρ c)).trans ((stretch1_arg6 (W2 m ρ c)).trans (W2_arg6 m ρ c))
theorem W4_arg7 (c : Dev nD) : W4 m ρ c (Proc.devRef .tc main_arg7) = m ((c : Thread nD τ).loc main_arg7) :=
  (stretch2_arg7 (W3 m ρ c)).trans ((stretch1_arg7 (W2 m ρ c)).trans (W2_arg7 m ρ c))
theorem W4_arg8 (c : Dev nD) : W4 m ρ c (Proc.devRef .tc main_arg8) = m ((c : Thread nD τ).loc main_arg8) :=
  (stretch2_arg8 (W3 m ρ c)).trans ((stretch1_arg8 (W2 m ρ c)).trans (W2_arg8 m ρ c))
theorem W4_arg9 (c : Dev nD) : W4 m ρ c (Proc.devRef .tc main_arg9) = m ((c : Thread nD τ).loc main_arg9) :=
  (stretch2_arg9 (W3 m ρ c)).trans ((stretch1_arg9 (W2 m ρ c)).trans (W2_arg9 m ρ c))
theorem W4_arg10 (c : Dev nD) : W4 m ρ c (Proc.devRef .tc main_arg10) = m ((c : Thread nD τ).loc main_arg10) :=
  (stretch2_arg10 (W3 m ρ c)).trans ((stretch1_arg10 (W2 m ρ c)).trans (W2_arg10 m ρ c))
theorem W4_arg11 (c : Dev nD) : W4 m ρ c (Proc.devRef .tc main_arg11) = m ((c : Thread nD τ).loc main_arg11) :=
  (stretch2_arg11 (W3 m ρ c)).trans ((stretch1_arg11 (W2 m ρ c)).trans (W2_arg11 m ρ c))

/-- Window 0: the first region's result. -/
theorem V5_h (c : Dev nD) : V5 m ρ c main_v1 = (dat0 (V1 m ρ) c).arrAt 3 cfg0.N :=
  (stretch3_v1 (W4 m ρ c)).trans (W4_v1 m ρ c)
/-- Window 1: it propagated once. -/
theorem V5_h1 (c : Dev nD) : V5 m ρ c main_v46 = propagate (F := F) ((dat0 (V1 m ρ) c).arrAt 3 cfg0.N) (m ((c : Thread nD τ).loc main_arg1)) :=
  (stretch3_once (W4 m ρ c) _ (W4_src m ρ c) (W4_dst m ρ c) (W4_dis m ρ c)).trans (by rw [W4_v1])
/-- Window 2: it propagated twice. -/
theorem V5_h2 (c : Dev nD) : V5 m ρ c main_v59 = propagate (F := F) (propagate (F := F) ((dat0 (V1 m ρ) c).arrAt 3 cfg0.N) (m ((c : Thread nD τ).loc main_arg1))) (m ((c : Thread nD τ).loc main_arg1)) :=
  (stretch3_twice (W4 m ρ c) _ (W4_src m ρ c) (W4_dst m ρ c) (W4_dis m ρ c)).trans (by rw [W4_v1])
/-- Windows 3, 5, 7: the three 64 × 64 weight matrices. -/
theorem V5_wp0 (c : Dev nD) : V5 m ρ c main_arg4 = m ((c : Thread nD τ).loc main_arg4) := (stretch3_arg4 (W4 m ρ c)).trans (W4_arg4 m ρ c)
theorem V5_wp1 (c : Dev nD) : V5 m ρ c main_arg6 = m ((c : Thread nD τ).loc main_arg6) := (stretch3_arg6 (W4 m ρ c)).trans (W4_arg6 m ρ c)
theorem V5_wp2 (c : Dev nD) : V5 m ρ c main_arg8 = m ((c : Thread nD τ).loc main_arg8) := (stretch3_arg8 (W4 m ρ c)).trans (W4_arg8 m ρ c)
/-- Windows 4, 6, 8, 12: the biases as rows. -/
theorem V5_bp0 (c : Dev nD) : V5 m ρ c main_v63 = shapeCast S1x64 (m ((c : Thread nD τ).loc main_arg5)) shapeCasts_S64_S1x64 :=
  (stretch3_bp0 (W4 m ρ c)).trans (by rw [W4_arg5])
theorem V5_bp1 (c : Dev nD) : V5 m ρ c main_v64 = shapeCast S1x64 (m ((c : Thread nD τ).loc main_arg7)) shapeCasts_S64_S1x64 :=
  (stretch3_bp1 (W4 m ρ c)).trans (by rw [W4_arg7])
theorem V5_bp2 (c : Dev nD) : V5 m ρ c main_v65 = shapeCast S1x64 (m ((c : Thread nD τ).loc main_arg9)) shapeCasts_S64_S1x64 :=
  (stretch3_bp2 (W4 m ρ c)).trans (by rw [W4_arg9])
theorem V5_b2 (c : Dev nD) : V5 m ρ c main_v66 = shapeCast S1x40 (m ((c : Thread nD τ).loc main_arg11)) shapeCasts_S40_S1x40 :=
  (stretch3_b2 (W4 m ρ c)).trans (by rw [W4_arg11])
/-- Windows 9, 10, 11: the last weight matrix's three blocks of rows. -/
theorem V5_w2a (c : Dev nD) : V5 m ρ c main_v60 = extractStridedSlice S64x40 ![0, 0] (m ((c : Thread nD τ).loc main_arg10)) slices_S192x40_S64x40_0_0 :=
  (stretch3_w2a (W4 m ρ c)).trans (by rw [W4_arg10])
theorem V5_w2b (c : Dev nD) : V5 m ρ c main_v61 = extractStridedSlice S64x40 ![64, 0] (m ((c : Thread nD τ).loc main_arg10)) slices_S192x40_S64x40_64_0 :=
  (stretch3_w2b (W4 m ρ c)).trans (by rw [W4_arg10])
theorem V5_w2c (c : Dev nD) : V5 m ρ c main_v62 = extractStridedSlice S64x40 ![128, 0] (m ((c : Thread nD τ).loc main_arg10)) slices_S192x40_S64x40_128_0 :=
  (stretch3_w2c (W4 m ρ c)).trans (by rw [W4_arg10])

end Cert.Bridge

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.HiddenBlock.lean ====
/-
  The first kernel's stored block against the reference's hidden layer. A block of 2000 rows of `x`, multiplied by the whole
  of `w1` with the product accumulated from zero, plus the bias row broadcast down the block, clipped below at zero, is —
  entry by entry — the reference's `relu (x · w1 + b1)` on the block's rows of the whole array: at the extended reals a
  change of float format is the identity and both products are the same sum over the 256 contracted positions.
-/
import proofs.«104437_j26439818674272_1_alg».proof.Proof.Gen.KernelIdeal.Skeleton
import proofs.«104437_j26439818674272_1_alg».proof.Proof.RefRead
import proofs.«104437_j26439818674272_1_alg».proof.Proof.Rows
import proofs.«104437_j26439818674272_1_alg».proof.Proof.LibContraction
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Bridge

open Idealize.ShloMosaic Idealize.ShloMosaic.ValueIdx Cert.KernelIdeal Cert.KernelIdeal.Gen

/-- On the left operand's free axis the index is the result's row. -/
theorem hidden_block_lhs_free (p : Fin 2000) (k : Fin 64) (l : Fin 256) :
    (dot_S2000x256_S256x64_S2000x64_1_0_0_1_n_n.lhsIdx (ix2 p k)
      ((Cert.Lib.Contraction.contrFin dot_S2000x256_S256x64_S2000x64_1_0_0_1_n_n (cl := 1) rfl 256 rfl).symm l) 0).val = p.val :=
  Cert.Lib.Contraction.lhs_free dot_S2000x256_S256x64_S2000x64_1_0_0_1_n_n (nl := 0) rfl rfl (ix2 p k) _ (by decide)

/-- On the left operand's contracted axis the index is the position. -/
theorem hidden_block_lhs_contracted (p : Fin 2000) (k : Fin 64) (l : Fin 256) :
    (dot_S2000x256_S256x64_S2000x64_1_0_0_1_n_n.lhsIdx (ix2 p k)
      ((Cert.Lib.Contraction.contrFin dot_S2000x256_S256x64_S2000x64_1_0_0_1_n_n (cl := 1) rfl 256 rfl).symm l) 1).val = l.val :=
  Cert.Lib.Contraction.lhs_contracted dot_S2000x256_S256x64_S2000x64_1_0_0_1_n_n (cl := 1) rfl 256 rfl (ix2 p k) l

/-- On the right operand's contracted axis the index is the position. -/
theorem hidden_block_rhs_contracted (p : Fin 2000) (k : Fin 64) (l : Fin 256) :
    (dot_S2000x256_S256x64_S2000x64_1_0_0_1_n_n.rhsIdx (ix2 p k)
      ((Cert.Lib.Contraction.contrFin dot_S2000x256_S256x64_S2000x64_1_0_0_1_n_n (cl := 1) rfl 256 rfl).symm l) 0).val = l.val :=
  Cert.Lib.Contraction.rhs_contracted dot_S2000x256_S256x64_S2000x64_1_0_0_1_n_n (cl := 1) (cr := 0) rfl rfl 256 rfl (ix2 p k) l

/-- On the right operand's free axis the index is the result's column. -/
theorem hidden_block_rhs_free (p : Fin 2000) (k : Fin 64) (l : Fin 256) :
    (dot_S2000x256_S256x64_S2000x64_1_0_0_1_n_n.rhsIdx (ix2 p k)
      ((Cert.Lib.Contraction.contrFin dot_S2000x256_S256x64_S2000x64_1_0_0_1_n_n (cl := 1) rfl 256 rfl).symm l) 1).val = k.val :=
  Cert.Lib.Contraction.rhs_free dot_S2000x256_S256x64_S2000x64_1_0_0_1_n_n (nl := 0) (nr := 1) rfl rfl rfl rfl (ix2 p k) _ (by decide)

/-- The block's product, accumulated from zero, at row `p` and column `k`: the sum over the 256 contracted positions. -/
theorem hidden_block_product (A : FVec Ideal S2000x256 .bf16) (B : FVec Ideal S256x64 .bf16) (p : Fin 2000) (k : Fin 64) :
    matmul dot_S2000x256_S256x64_S2000x64_1_0_0_1_n_n none A B (constant (F := Ideal) S2000x64 .f32 0x00000000#32) (ix2 p k)
      = ∑ l : Fin 256, A (ix2 p l) * B (ix2 l k) := by
  refine (Ideal.matmul_constant_zero_apply dot_S2000x256_S256x64_S2000x64_1_0_0_1_n_n none A B (ix2 p k)).trans ?_
  refine (Cert.Lib.Contraction.sum_contr dot_S2000x256_S256x64_S2000x64_1_0_0_1_n_n (cl := 1) rfl 256 rfl _).trans ?_
  refine Finset.sum_congr rfl fun l _ => ?_
  have el : dot_S2000x256_S256x64_S2000x64_1_0_0_1_n_n.lhsIdx (ix2 p k)
      ((Cert.Lib.Contraction.contrFin dot_S2000x256_S256x64_S2000x64_1_0_0_1_n_n (cl := 1) rfl 256 rfl).symm l) = ix2 p l :=
    funext fun a => Fin.ext (by
      match a with
      | ⟨0, _⟩ => exact hidden_block_lhs_free p k l
      | ⟨1, _⟩ => exact hidden_block_lhs_contracted p k l)
  have er : dot_S2000x256_S256x64_S2000x64_1_0_0_1_n_n.rhsIdx (ix2 p k)
      ((Cert.Lib.Contraction.contrFin dot_S2000x256_S256x64_S2000x64_1_0_0_1_n_n (cl := 1) rfl 256 rfl).symm l) = ix2 l k :=
    funext fun a => Fin.ext (by
      match a with
      | ⟨0, _⟩ => exact hidden_block_rhs_contracted p k l
      | ⟨1, _⟩ => exact hidden_block_rhs_free p k l)
  rw [el, er]

/-- The kernel's stored entry at row `p`, column `k`: the product's sum plus the bias row's entry, clipped below at the zero word's value. -/
theorem hidden_block_kernel (X0 : Vec Ideal S2000x256 .f32) (X1 : Vec Ideal S256x64 .f32) (X2 : Vec Ideal S1x64 .f32)
    (p : Fin 2000) (k : Fin 64) :
    k0_pay1 (F := Ideal) X0 X1 X2 (ix2 p k)
      = max ((∑ l : Fin 256, X0 (ix2 p l) * X1 (ix2 l k)) + X2 (ix2 (0 : Fin 1) k)) (Ideal.ofBits .f32 0x00000000#32) := by
  unfold k0_pay1
  rw [ValueIdx.maximumf_apply, ValueIdx.addf_apply, hidden_block_product, shapeCast_self, broadcastTo_1b_ab_apply, ValueIdx.broadcast_apply]
  rfl

/-- The reference's hidden layer at row `r`, column `k`: the same sum over the 256 contracted positions plus the bias's entry, clipped below at the zero word's value. -/
theorem hidden_block_reference (x0 : (⟨Cert.ReferenceIdeal.S100000x256, .f32⟩ : BufTy).Contents (Elt Ideal)) (x2 : (⟨Cert.ReferenceIdeal.S256x64, .f32⟩ : BufTy).Contents (Elt Ideal)) (x3 : (⟨Cert.ReferenceIdeal.S64, .f32⟩ : BufTy).Contents (Elt Ideal))
    (r : Fin 100000) (k : Fin 64) :
    Cert.ReferenceIdeal.ReadP.val_main_v4 (F := Ideal) x0 x2 x3 (ix2 r k)
      = max ((∑ l : Fin 256, x0 (ix2 r l) * x2 (ix2 l k)) + x3 (ix1 k)) (Ideal.ofBits .f32 0x00000000#32) := by
  rw [Cert.ReferenceIdeal.ReadP.val_main_v4_apply, Cert.ReferenceIdeal.ReadP.val_main_v3_apply,
    Cert.ReferenceIdeal.ReadP.val_main_v0_apply, Cert.ReferenceIdeal.ReadP.val_main_v2_apply,
    Cert.ReferenceIdeal.ReadP.val_main_v1_apply, Cert.ReferenceIdeal.ReadP.val_main_call0_v0_apply,
    Cert.ReferenceIdeal.ReadP.val_main_call0_cst_apply]
  have e0 : ∀ l : Fin 256, Cert.ReferenceIdeal.ReadP.lidx_main_v0 (ix2 r k) l = ix2 r l := fun l =>
    funext fun a => by match a with | ⟨0, _⟩ => rfl | ⟨1, _⟩ => rfl
  have e1 : ∀ l : Fin 256, Cert.ReferenceIdeal.ReadP.ridx_main_v0 (ix2 r k) l = ix2 l k := fun l =>
    funext fun a => by match a with | ⟨0, _⟩ => rfl | ⟨1, _⟩ => rfl
  have e2 : Cert.ReferenceIdeal.ReadP.idx_main_v1 (Cert.ReferenceIdeal.ReadP.idx_main_v2 (ix2 r k)) = ix1 k :=
    funext fun a => by match a with | ⟨0, _⟩ => rfl
  rw [e2]
  simp only [e0, e1]
  rfl

/-- Entry by entry the stored block is the reference's hidden layer on the block's rows: both sides are the same sum, bias entry and clip. -/
theorem hidden_block (x0 : (⟨Cert.ReferenceIdeal.S100000x256, .f32⟩ : BufTy).Contents (Elt Ideal)) (x2 : (⟨Cert.ReferenceIdeal.S256x64, .f32⟩ : BufTy).Contents (Elt Ideal)) (x3 : (⟨Cert.ReferenceIdeal.S64, .f32⟩ : BufTy).Contents (Elt Ideal))
    (X0 : Vec Ideal S2000x256 .f32) (X1 : Vec Ideal S256x64 .f32) (X2 : Vec Ideal S1x64 .f32) (b : Fin 50)
    (hX0 : ∀ (p : Fin 2000) (l : Fin 256), X0 (ix2 p l) = x0 (ix2 (grow b p) l))
    (hX1 : ∀ (l : Fin 256) (k : Fin 64), X1 (ix2 l k) = x2 (ix2 l k))
    (hX2 : ∀ k : Fin 64, X2 (ix2 (0 : Fin 1) k) = x3 (ix1 k))
    (p : Fin 2000) (k : Fin 64) :
    k0_pay1 (F := Ideal) X0 X1 X2 (ix2 p k) = Cert.ReferenceIdeal.ReadP.val_main_v4 (F := Ideal) x0 x2 x3 (ix2 (grow b p) k) := by
  rw [hidden_block_kernel, hidden_block_reference, hX2 k]
  refine congrArg (fun s => max (s + x3 (ix1 k)) (Ideal.ofBits .f32 0x00000000#32)) ?_
  exact Finset.sum_congr rfl fun l _ => by rw [hX0 p l, hX1 l k]

end Cert.Bridge

end
-- ==== Proof.HeadSplit.lean ====
/-
  The head kernel's stored value, cut in two: the LOGITS — the three relu'd hidden blocks, each multiplied by its own
  64-row slice of the last weight matrix, the three products summed and the bias row added — and the LOG-SOFTMAX of a
  block of logits along its rows (subtract the row maximum, then subtract the logarithm of the row's sum of exponentials).
  The stored value is the second applied to the first.
-/
import proofs.«104437_j26439818674272_1_alg».proof.Proof.Gen.KernelIdeal.Skeleton

noncomputable section

namespace Cert.Bridge

open Idealize.ShloMosaic Cert.KernelIdeal Cert.KernelIdeal.Gen

variable {F : FTy → Type} [FloatOps F]

/-- The logits of a block of 2000 rows: `o0·w2a + o1·w2b + o2·w2c + b2`, the products accumulated from zero. -/
def logitsK (o0 o1 o2 : FVec F S2000x64 .f32) (w2a w2b w2c : Vec F S64x40 .f32) (b2 : Vec F S1x40 .f32) : FVec F S2000x40 .f32 :=
  have v37 : FVec F S64x40 .f32 := shapeCast S64x40 w2a shapeCasts_S64x40_S64x40
  have v38 : FVec F S64x40 .bf16 := truncf .bf16 v37 bitsLt_bf16_f32
  have v40 : FVec F S64x40 .f32 := shapeCast S64x40 w2b shapeCasts_S64x40_S64x40
  have v41 : FVec F S64x40 .bf16 := truncf .bf16 v40 bitsLt_bf16_f32
  have v43 : FVec F S64x40 .f32 := shapeCast S64x40 w2c shapeCasts_S64x40_S64x40
  have v44 : FVec F S64x40 .bf16 := truncf .bf16 v43 bitsLt_bf16_f32
  have v45 : FVec F S2000x64 .bf16 := truncf .bf16 o0 bitsLt_bf16_f32
  have cst_28 : FVec F S2000x40 .f32 := constant S2000x40 .f32 0x00000000#32
  have v46 : FVec F S2000x40 .f32 := matmul dot_S2000x64_S64x40_S2000x40_1_0_0_1_n_n none v45 v38 cst_28
  have v47 : FVec F S2000x64 .bf16 := truncf .bf16 o1 bitsLt_bf16_f32
  have cst_29 : FVec F S2000x40 .f32 := constant S2000x40 .f32 0x00000000#32
  have v48 : FVec F S2000x40 .f32 := matmul dot_S2000x64_S64x40_S2000x40_1_0_0_1_n_n none v47 v41 cst_29
  have v49 : FVec F S2000x40 .f32 := addf v46 v48
  have v50 : FVec F S2000x64 .bf16 := truncf .bf16 o2 bitsLt_bf16_f32
  have cst_30 : FVec F S2000x40 .f32 := constant S2000x40 .f32 0x00000000#32
  have v51 : FVec F S2000x40 .f32 := matmul dot_S2000x64_S64x40_S2000x40_1_0_0_1_n_n none v50 v44 cst_30
  have v52 : FVec F S2000x40 .f32 := addf v49 v51
  have v54 : FVec F S1x40 .f32 := shapeCast S1x40 b2 shapeCasts_S1x40_S1x40
  have v55 : FVec F S2000x40 .f32 := broadcastTo S2000x40 v54 broadcasts_S1x40_S2000x40
  have v56 : FVec F S2000x40 .f32 := addf v52 v55
  v56

/-- The log-softmax of a block of logits along each row: `s - log (∑ exp s)` with `s = L - max L`. -/
def lsmK (L : FVec F S2000x40 .f32) : FVec F S2000x40 .f32 :=
  have v57 : FVec F S2000 .f32 := multiReduction .maximumf [1] S2000 L 0xFF800000#32 reduces_S2000x40_S2000 (.inl rfl) rfl
  have v58 : FVec F S2000x1 .f32 := shapeCast S2000x1 v57 shapeCasts_S2000_S2000x1
  have v59 : FVec F S2000x40 .f32 := broadcastTo S2000x40 v58 broadcasts_S2000x1_S2000x40
  have v60 : FVec F S2000x40 .f32 := subf L v59
  have v61 : FVec F S2000x40 .f32 := exp v60
  have v62 : FVec F S2000 .f32 := multiReduction .add [1] S2000 v61 0x00000000#32 reduces_S2000x40_S2000 (.inl rfl) rfl
  have v63 : FVec F S2000x1 .f32 := shapeCast S2000x1 v62 shapeCasts_S2000_S2000x1
  have v64 : FVec F S2000x1 .f32 := log v63
  have v65 : FVec F S2000x40 .f32 := broadcastTo S2000x40 v64 broadcasts_S2000x1_S2000x40
  have v66 : FVec F S2000x40 .f32 := subf v60 v65
  v66

/-- The stored value is the log-softmax of the logits of the three relu'd hidden blocks (the third relu is taken here:
    the kernel's first part hands it over before the maximum with zero). -/
theorem k1_pay1_eq (v21 v28 v33 v34 : FVec F S2000x64 .f32) (v36 v39 v42 : Vec F S64x40 .f32) (v53 : Vec F S1x40 .f32) :
    k1_pay1 v21 v28 v33 v34 v36 v39 v42 v53 = lsmK (logitsK v21 v28 (maximumf v33 v34) v36 v39 v42 v53) := rfl

end Cert.Bridge

end
-- ==== Proof.HeadRelu.lean ====
/-
  The head kernel's three hidden projections against the reference's. For each of the three propagated feature arrays
  (the hidden layer itself, and it propagated once and twice over the graph) a block of 2000 rows times a 64 × 64 weight
  matrix, accumulated from zero, plus a bias row, clipped below at zero, is entry by entry the maximum with zero of the
  reference's product-plus-bias on the block's rows of the whole array.
-/
import proofs.«104437_j26439818674272_1_alg».proof.Proof.Gen.KernelIdeal.Skeleton
import proofs.«104437_j26439818674272_1_alg».proof.Proof.RefRead
import proofs.«104437_j26439818674272_1_alg».proof.Proof.Rows
import proofs.«104437_j26439818674272_1_alg».proof.Proof.LibContraction
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Bridge

open Idealize.ShloMosaic Idealize.ShloMosaic.ValueIdx Cert.KernelIdeal Cert.KernelIdeal.Gen

/- The three feature arrays enter only through their entries at an index: what they are made of plays no part below. -/
attribute [local irreducible] Cert.ReferenceIdeal.ReadP.val_main_v4 Cert.ReferenceIdeal.ReadP.val_main_v49 Cert.ReferenceIdeal.ReadP.val_main_v62

/-- A block of 2000 rows times a 64 × 64 matrix, accumulated from zero: entry (p, k) is the sum over l of the block
    at (p, l) times the matrix at (l, k). -/
theorem relu_matmul_block (A : FVec Ideal S2000x64 .bf16) (M : FVec Ideal S64x64 .bf16) (p : Fin 2000) (k : Fin 64) :
    matmul dot_S2000x64_S64x64_S2000x64_1_0_0_1_n_n none A M (constant S2000x64 .f32 0x00000000#32) (ix2 p k)
      = ∑ l : Fin 64, A (ix2 p l) * M (ix2 l k) := by
  refine (Ideal.matmul_constant_zero_apply dot_S2000x64_S64x64_S2000x64_1_0_0_1_n_n none A M (ix2 p k)).trans ?_
  refine (Cert.Lib.Contraction.sum_contr dot_S2000x64_S64x64_S2000x64_1_0_0_1_n_n (cl := 1) rfl 64 rfl _).trans ?_
  refine Finset.sum_congr rfl fun l _ => ?_
  have el : dot_S2000x64_S64x64_S2000x64_1_0_0_1_n_n.lhsIdx (ix2 p k)
      ((Cert.Lib.Contraction.contrFin dot_S2000x64_S64x64_S2000x64_1_0_0_1_n_n (cl := 1) rfl 64 rfl).symm l) = ix2 p l :=
    funext fun a => Fin.ext (by
      match a with
      | ⟨0, _⟩ => exact Cert.Lib.Contraction.lhs_free _ rfl rfl _ _ (by decide)
      | ⟨1, _⟩ => exact Cert.Lib.Contraction.lhs_contracted _ rfl 64 rfl _ _)
  have er : dot_S2000x64_S64x64_S2000x64_1_0_0_1_n_n.rhsIdx (ix2 p k)
      ((Cert.Lib.Contraction.contrFin dot_S2000x64_S64x64_S2000x64_1_0_0_1_n_n (cl := 1) rfl 64 rfl).symm l) = ix2 l k :=
    funext fun a => Fin.ext (by
      match a with
      | ⟨0, _⟩ => exact Cert.Lib.Contraction.rhs_contracted _ rfl rfl 64 rfl _ _
      | ⟨1, _⟩ => exact Cert.Lib.Contraction.rhs_free _ rfl rfl rfl rfl _ _ (by decide))
  rw [el, er]

/-- The block's product with the matrix plus the bias row, before the clip: entry (p, k) is the sum over l of the
    whole array at (2000 b + p, l) times the matrix at (l, k), plus the bias at k. -/
theorem relu_pay4_apply (H : (⟨2, ![100000, 64]⟩ : Shape).Idx → EReal) (W : (⟨2, ![64, 64]⟩ : Shape).Idx → EReal)
    (B : (⟨1, ![64]⟩ : Shape).Idx → EReal)
    (Xh : Vec Ideal S2000x64 .f32) (Xw : Vec Ideal S64x64 .f32) (Xb : Vec Ideal S1x64 .f32) (b : Fin 50)
    (hh : ∀ (p : Fin 2000) (l : Fin 64), Xh (ix2 p l) = H (ix2 (grow b p) l))
    (hw : ∀ (l k : Fin 64), Xw (ix2 l k) = W (ix2 l k))
    (hbias : ∀ k : Fin 64, Xb (ix2 (0 : Fin 1) k) = B (ix1 k))
    (p : Fin 2000) (k : Fin 64) :
    k1_pay4 (F := Ideal) Xh Xw Xb (ix2 p k) = (∑ l : Fin 64, H (ix2 (grow b p) l) * W (ix2 l k)) + B (ix1 k) := by
  unfold k1_pay4
  simp only [shapeCast_self]
  refine (ValueIdx.addf_apply _ _ _).trans ?_
  refine congrArg₂ (· + ·) ?_ ?_
  · refine (relu_matmul_block _ _ p k).trans (Finset.sum_congr rfl fun l _ => ?_)
    show Xh (ix2 p l) * Xw (ix2 l k) = _
    rw [hh, hw]
  · exact (broadcastTo_1b_ab_apply _ _ p k).trans (hbias k)

theorem relu0_block (x0 : (⟨Cert.ReferenceIdeal.S100000x256, .f32⟩ : BufTy).Contents (Elt Ideal)) (x1 : (⟨Cert.ReferenceIdeal.S2x1600000, .i32⟩ : BufTy).Contents (Elt Ideal)) (x2 : (⟨Cert.ReferenceIdeal.S256x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal)) (x8 : (⟨Cert.ReferenceIdeal.S64x64, .f32⟩ : BufTy).Contents (Elt Ideal)) (x9 : (⟨Cert.ReferenceIdeal.S64, .f32⟩ : BufTy).Contents (Elt Ideal)) (x10 : (⟨Cert.ReferenceIdeal.S192x40, .f32⟩ : BufTy).Contents (Elt Ideal)) (x11 : (⟨Cert.ReferenceIdeal.S40, .f32⟩ : BufTy).Contents (Elt Ideal))
    (Xh : Vec Ideal S2000x64 .f32) (Xw : Vec Ideal S64x64 .f32) (Xb : Vec Ideal S1x64 .f32) (b : Fin 50)
    (hh : ∀ (p : Fin 2000) (l : Fin 64), Xh (ix2 p l) = Cert.ReferenceIdeal.ReadP.val_main_v4 (F := Ideal) x0 x2 x3 (ix2 (grow b p) l))
    (hw : ∀ (l k : Fin 64), Xw (ix2 l k) = x4 (ix2 l k))
    (hbias : ∀ k : Fin 64, Xb (ix2 (0 : Fin 1) k) = x5 (ix1 k))
    (p : Fin 2000) (k : Fin 64) :
    k1_pay2 (F := Ideal) Xh Xw Xb (ix2 p k) = max (Cert.ReferenceIdeal.ReadP.val_main_v66 (F := Ideal) x0 x2 x3 x4 x5 (ix2 (grow b p) k)) (Ideal.ofBits .f32 0x00000000#32) := by
  -- the clip is the maximum with the zero word on both sides; what is left is the product plus the bias
  show max (k1_pay4 (F := Ideal) Xh Xw Xb (ix2 p k)) (Ideal.ofBits .f32 0x00000000#32) = _
  refine congrArg (max · (Ideal.ofBits .f32 0x00000000#32)) ?_
  refine (relu_pay4_apply (Cert.ReferenceIdeal.ReadP.val_main_v4 (F := Ideal) x0 x2 x3) x4 x5 Xh Xw Xb b hh hw hbias p k).trans ?_
  -- the reference's operand indices at row 2000 b + p, column k, position l are (2000 b + p, l) and (l, k); its bias index is k
  have e1 : ∀ l : Fin 64, Cert.ReferenceIdeal.ReadP.lidx_main_v63 (ix2 (grow b p) k) l = ix2 (grow b p) l := fun l => funext fun a => by
    match a with
    | ⟨0, _⟩ => rfl
    | ⟨1, _⟩ => rfl
  have e2 : ∀ l : Fin 64, Cert.ReferenceIdeal.ReadP.ridx_main_v63 (ix2 (grow b p) k) l = ix2 l k := fun l => funext fun a => by
    match a with
    | ⟨0, _⟩ => rfl
    | ⟨1, _⟩ => rfl
  have e3 : Cert.ReferenceIdeal.ReadP.idx_main_v64 (Cert.ReferenceIdeal.ReadP.idx_main_v65 (ix2 (grow b p) k)) = ix1 k := funext fun a => by
    match a with
    | ⟨0, _⟩ => rfl
  refine Eq.symm ?_
  refine (Cert.ReferenceIdeal.ReadP.val_main_v66_apply x0 x2 x3 x4 x5 (ix2 (grow b p) k)).trans ?_
  refine (Ideal.addf_def (φ := .f32) _ _).trans ?_
  refine congrArg₂ (· + ·) ?_ ?_
  · refine (Cert.ReferenceIdeal.ReadP.val_main_v63_apply x0 x2 x3 x4 (ix2 (grow b p) k)).trans (Finset.sum_congr rfl fun l _ => ?_)
    rw [e1, e2]
  · refine (Cert.ReferenceIdeal.ReadP.val_main_v65_apply x5 (ix2 (grow b p) k)).trans ?_
    refine (Cert.ReferenceIdeal.ReadP.val_main_v64_apply x5 _).trans ?_
    rw [e3]

theorem relu1_block (x0 : (⟨Cert.ReferenceIdeal.S100000x256, .f32⟩ : BufTy).Contents (Elt Ideal)) (x1 : (⟨Cert.ReferenceIdeal.S2x1600000, .i32⟩ : BufTy).Contents (Elt Ideal)) (x2 : (⟨Cert.ReferenceIdeal.S256x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal)) (x8 : (⟨Cert.ReferenceIdeal.S64x64, .f32⟩ : BufTy).Contents (Elt Ideal)) (x9 : (⟨Cert.ReferenceIdeal.S64, .f32⟩ : BufTy).Contents (Elt Ideal)) (x10 : (⟨Cert.ReferenceIdeal.S192x40, .f32⟩ : BufTy).Contents (Elt Ideal)) (x11 : (⟨Cert.ReferenceIdeal.S40, .f32⟩ : BufTy).Contents (Elt Ideal))
    (Xh : Vec Ideal S2000x64 .f32) (Xw : Vec Ideal S64x64 .f32) (Xb : Vec Ideal S1x64 .f32) (b : Fin 50)
    (hh : ∀ (p : Fin 2000) (l : Fin 64), Xh (ix2 p l) = Cert.ReferenceIdeal.ReadP.val_main_v49 (F := Ideal) x0 x1 x2 x3 (ix2 (grow b p) l))
    (hw : ∀ (l k : Fin 64), Xw (ix2 l k) = x6 (ix2 l k))
    (hbias : ∀ k : Fin 64, Xb (ix2 (0 : Fin 1) k) = x7 (ix1 k))
    (p : Fin 2000) (k : Fin 64) :
    k1_pay3 (F := Ideal) Xh Xw Xb (ix2 p k) = max (Cert.ReferenceIdeal.ReadP.val_main_v70 (F := Ideal) x0 x1 x2 x3 x6 x7 (ix2 (grow b p) k)) (Ideal.ofBits .f32 0x00000000#32) := by
  -- the clip is the maximum with the zero word on both sides; what is left is the product plus the bias
  show max (k1_pay4 (F := Ideal) Xh Xw Xb (ix2 p k)) (Ideal.ofBits .f32 0x00000000#32) = _
  refine congrArg (max · (Ideal.ofBits .f32 0x00000000#32)) ?_
  refine (relu_pay4_apply (Cert.ReferenceIdeal.ReadP.val_main_v49 (F := Ideal) x0 x1 x2 x3) x6 x7 Xh Xw Xb b hh hw hbias p k).trans ?_
  -- the reference's operand indices at row 2000 b + p, column k, position l are (2000 b + p, l) and (l, k); its bias index is k
  have e1 : ∀ l : Fin 64, Cert.ReferenceIdeal.ReadP.lidx_main_v67 (ix2 (grow b p) k) l = ix2 (grow b p) l := fun l => funext fun a => by
    match a with
    | ⟨0, _⟩ => rfl
    | ⟨1, _⟩ => rfl
  have e2 : ∀ l : Fin 64, Cert.ReferenceIdeal.ReadP.ridx_main_v67 (ix2 (grow b p) k) l = ix2 l k := fun l => funext fun a => by
    match a with
    | ⟨0, _⟩ => rfl
    | ⟨1, _⟩ => rfl
  have e3 : Cert.ReferenceIdeal.ReadP.idx_main_v68 (Cert.ReferenceIdeal.ReadP.idx_main_v69 (ix2 (grow b p) k)) = ix1 k := funext fun a => by
    match a with
    | ⟨0, _⟩ => rfl
  refine Eq.symm ?_
  refine (Cert.ReferenceIdeal.ReadP.val_main_v70_apply x0 x1 x2 x3 x6 x7 (ix2 (grow b p) k)).trans ?_
  refine (Ideal.addf_def (φ := .f32) _ _).trans ?_
  refine congrArg₂ (· + ·) ?_ ?_
  · refine (Cert.ReferenceIdeal.ReadP.val_main_v67_apply x0 x1 x2 x3 x6 (ix2 (grow b p) k)).trans (Finset.sum_congr rfl fun l _ => ?_)
    rw [e1, e2]
  · refine (Cert.ReferenceIdeal.ReadP.val_main_v69_apply x7 (ix2 (grow b p) k)).trans ?_
    refine (Cert.ReferenceIdeal.ReadP.val_main_v68_apply x7 _).trans ?_
    rw [e3]

theorem relu2_block (x0 : (⟨Cert.ReferenceIdeal.S100000x256, .f32⟩ : BufTy).Contents (Elt Ideal)) (x1 : (⟨Cert.ReferenceIdeal.S2x1600000, .i32⟩ : BufTy).Contents (Elt Ideal)) (x2 : (⟨Cert.ReferenceIdeal.S256x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal)) (x8 : (⟨Cert.ReferenceIdeal.S64x64, .f32⟩ : BufTy).Contents (Elt Ideal)) (x9 : (⟨Cert.ReferenceIdeal.S64, .f32⟩ : BufTy).Contents (Elt Ideal)) (x10 : (⟨Cert.ReferenceIdeal.S192x40, .f32⟩ : BufTy).Contents (Elt Ideal)) (x11 : (⟨Cert.ReferenceIdeal.S40, .f32⟩ : BufTy).Contents (Elt Ideal))
    (Xh : Vec Ideal S2000x64 .f32) (Xw : Vec Ideal S64x64 .f32) (Xb : Vec Ideal S1x64 .f32) (b : Fin 50)
    (hh : ∀ (p : Fin 2000) (l : Fin 64), Xh (ix2 p l) = Cert.ReferenceIdeal.ReadP.val_main_v62 (F := Ideal) x0 x1 x2 x3 (ix2 (grow b p) l))
    (hw : ∀ (l k : Fin 64), Xw (ix2 l k) = x8 (ix2 l k))
    (hbias : ∀ k : Fin 64, Xb (ix2 (0 : Fin 1) k) = x9 (ix1 k))
    (p : Fin 2000) (k : Fin 64) :
    maximumf (k1_pay4 (F := Ideal) Xh Xw Xb) (k1_pay5 (F := Ideal)) (ix2 p k) = max (Cert.ReferenceIdeal.ReadP.val_main_v74 (F := Ideal) x0 x1 x2 x3 x8 x9 (ix2 (grow b p) k)) (Ideal.ofBits .f32 0x00000000#32) := by
  -- the clip is the maximum with the zero word on both sides; what is left is the product plus the bias
  show max (k1_pay4 (F := Ideal) Xh Xw Xb (ix2 p k)) (Ideal.ofBits .f32 0x00000000#32) = _
  refine congrArg (max · (Ideal.ofBits .f32 0x00000000#32)) ?_
  refine (relu_pay4_apply (Cert.ReferenceIdeal.ReadP.val_main_v62 (F := Ideal) x0 x1 x2 x3) x8 x9 Xh Xw Xb b hh hw hbias p k).trans ?_
  -- the reference's operand indices at row 2000 b + p, column k, position l are (2000 b + p, l) and (l, k); its bias index is k
  have e1 : ∀ l : Fin 64, Cert.ReferenceIdeal.ReadP.lidx_main_v71 (ix2 (grow b p) k) l = ix2 (grow b p) l := fun l => funext fun a => by
    match a with
    | ⟨0, _⟩ => rfl
    | ⟨1, _⟩ => rfl
  have e2 : ∀ l : Fin 64, Cert.ReferenceIdeal.ReadP.ridx_main_v71 (ix2 (grow b p) k) l = ix2 l k := fun l => funext fun a => by
    match a with
    | ⟨0, _⟩ => rfl
    | ⟨1, _⟩ => rfl
  have e3 : Cert.ReferenceIdeal.ReadP.idx_main_v72 (Cert.ReferenceIdeal.ReadP.idx_main_v73 (ix2 (grow b p) k)) = ix1 k := funext fun a => by
    match a with
    | ⟨0, _⟩ => rfl
  refine Eq.symm ?_
  refine (Cert.ReferenceIdeal.ReadP.val_main_v74_apply x0 x1 x2 x3 x8 x9 (ix2 (grow b p) k)).trans ?_
  refine (Ideal.addf_def (φ := .f32) _ _).trans ?_
  refine congrArg₂ (· + ·) ?_ ?_
  · refine (Cert.ReferenceIdeal.ReadP.val_main_v71_apply x0 x1 x2 x3 x8 (ix2 (grow b p) k)).trans (Finset.sum_congr rfl fun l _ => ?_)
    rw [e1, e2]
  · refine (Cert.ReferenceIdeal.ReadP.val_main_v73_apply x9 (ix2 (grow b p) k)).trans ?_
    refine (Cert.ReferenceIdeal.ReadP.val_main_v72_apply x9 _).trans ?_
    rw [e3]

end Cert.Bridge

end
-- ==== Proof.HeadLogits.lean ====
/-
  The logits. The kernel multiplies each of the three relu'd 2000 × 64 blocks by its own 64-row slice of the 192 × 40 weight
  matrix and adds the three products and the bias row; the reference concatenates the three 64-wide arrays side by side,
  clips at zero, and takes ONE product with the whole matrix. The two agree entry by entry: the concatenation's column
  `k` is the first, second or third array's column `k`, `k - 64` or `k - 128`, the maximum with zero is taken entrywise, and
  the sum over 192 positions is the sum of its three consecutive runs of 64 — addition of extended reals is commutative and
  associative, so regrouping a finite sum needs no finiteness.
-/
import proofs.«104437_j26439818674272_1_alg».proof.Proof.Gen.KernelIdeal.Skeleton
import proofs.«104437_j26439818674272_1_alg».proof.Proof.RefRead
import proofs.«104437_j26439818674272_1_alg».proof.Proof.Rows
import proofs.«104437_j26439818674272_1_alg».proof.Proof.LibContraction
import Idealize.ShloMosaic.Lib.ValueIdx
import Idealize.ShloMosaic.Lib.ValueLayout
import Idealize.ShloMosaic.Lib.Pipeline.Value
import Idealize.ShloMosaic.PureOps.Ideal.Laws
import proofs.«104437_j26439818674272_1_alg».proof.Proof.HeadSplit

noncomputable section

open scoped BigOperators

namespace Cert.Bridge

open Idealize.ShloMosaic Idealize.ShloMosaic.ValueIdx Cert.KernelIdeal Cert.KernelIdeal.Gen

/-- A sum over 192 positions is the sum of its three consecutive runs of 64. -/
theorem sum_three_runs {M : Type*} [AddCommMonoid M] (f0 f1 f2 : Fin 64 → M) (g : Fin 192 → M)
    (h0 : ∀ k : Fin 64, g ⟨k.val, by omega⟩ = f0 k)
    (h1 : ∀ k : Fin 64, g ⟨64 + k.val, by omega⟩ = f1 k)
    (h2 : ∀ k : Fin 64, g ⟨128 + k.val, by omega⟩ = f2 k) :
    ∑ k : Fin 192, g k = (∑ k, f0 k + ∑ k, f1 k) + ∑ k, f2 k := by
  have e1 : ∑ k : Fin 192, g k = ∑ k : Fin 128, g (Fin.castAdd 64 k) + ∑ k : Fin 64, g (Fin.natAdd 128 k) :=
    Fin.sum_univ_add (a := 128) (b := 64) g
  have e2 : ∑ k : Fin 128, g (Fin.castAdd 64 k)
      = ∑ k : Fin 64, g (Fin.castAdd 64 (Fin.castAdd 64 k)) + ∑ k : Fin 64, g (Fin.castAdd 64 (Fin.natAdd 64 k)) :=
    Fin.sum_univ_add (a := 64) (b := 64) (fun k : Fin 128 => g (Fin.castAdd 64 k))
  rw [e1, e2]
  refine congrArg₂ (· + ·) (congrArg₂ (· + ·) ?_ ?_) ?_
  · exact Finset.sum_congr rfl fun k _ => (congrArg g (Fin.ext rfl)).trans (h0 k)
  · exact Finset.sum_congr rfl fun k _ => (congrArg g (Fin.ext rfl)).trans (h1 k)
  · exact Finset.sum_congr rfl fun k _ => (congrArg g (Fin.ext rfl)).trans (h2 k)

/-- The kernel's product of a 2000 × 64 block with a 64 × 40 block, accumulated from zero, read at `(p, j)`: the sum
    over the 64 contracted positions of the left block's row `p` times the right block's column `j`. -/
theorem matmul_read (a : FVec Ideal S2000x64 .bf16) (w : FVec Ideal S64x40 .bf16) (p : Fin 2000) (j : Fin 40) :
    matmul (F := Ideal) dot_S2000x64_S64x40_S2000x40_1_0_0_1_n_n none a w (constant (F := Ideal) S2000x40 .f32 0x00000000#32) (ix2 p j)
      = ∑ k : Fin 64, a (ix2 p k) * w (ix2 k j) := by
  refine (Ideal.matmul_constant_zero_apply dot_S2000x64_S64x40_S2000x40_1_0_0_1_n_n none a w (ix2 p j)).trans ?_
  refine (Cert.Lib.Contraction.sum_contr dot_S2000x64_S64x40_S2000x40_1_0_0_1_n_n (cl := 1) rfl 64 rfl _).trans ?_
  refine Finset.sum_congr rfl fun k _ => ?_
  have el : dot_S2000x64_S64x40_S2000x40_1_0_0_1_n_n.lhsIdx (ix2 p j)
      ((Cert.Lib.Contraction.contrFin dot_S2000x64_S64x40_S2000x40_1_0_0_1_n_n (cl := 1) rfl 64 rfl).symm k) = ix2 p k :=
    funext fun ax => Fin.ext (by
      match ax with
      | ⟨0, _⟩ => exact Cert.Lib.Contraction.lhs_free dot_S2000x64_S64x40_S2000x40_1_0_0_1_n_n (nl := 0) rfl rfl (ix2 p j) _ (by decide)
      | ⟨1, _⟩ => exact Cert.Lib.Contraction.lhs_contracted dot_S2000x64_S64x40_S2000x40_1_0_0_1_n_n (cl := 1) rfl 64 rfl (ix2 p j) k)
  have er : dot_S2000x64_S64x40_S2000x40_1_0_0_1_n_n.rhsIdx (ix2 p j)
      ((Cert.Lib.Contraction.contrFin dot_S2000x64_S64x40_S2000x40_1_0_0_1_n_n (cl := 1) rfl 64 rfl).symm k) = ix2 k j :=
    funext fun ax => Fin.ext (by
      match ax with
      | ⟨0, _⟩ => exact Cert.Lib.Contraction.rhs_contracted dot_S2000x64_S64x40_S2000x40_1_0_0_1_n_n (cl := 1) (cr := 0) rfl rfl 64 rfl (ix2 p j) k
      | ⟨1, _⟩ => exact Cert.Lib.Contraction.rhs_free dot_S2000x64_S64x40_S2000x40_1_0_0_1_n_n (nl := 0) (nr := 1) rfl rfl rfl rfl (ix2 p j) _ (by decide))
  rw [el, er]

section Concat
variable {α : Type}

/-- Three 100000 × 64 arrays side by side, read at a column of the FIRST run: the first array at that column. -/
theorem concat3_read0 (y0 y1 y2 : Cert.ReferenceIdeal.S100000x64.Idx → α)
    (h : Shape.Concatenates [Cert.ReferenceIdeal.S100000x64, Cert.ReferenceIdeal.S100000x64, Cert.ReferenceIdeal.S100000x64] Cert.ReferenceIdeal.S100000x192 1)
    (r : Fin 100000) (k : Fin 64) :
    concatenate Cert.ReferenceIdeal.S100000x192 1 [⟨Cert.ReferenceIdeal.S100000x64, y0⟩, ⟨Cert.ReferenceIdeal.S100000x64, y1⟩, ⟨Cert.ReferenceIdeal.S100000x64, y2⟩] h
      (ix2 r (⟨k.val, by omega⟩ : Fin 192)) = y0 (ix2 r k) := by
  refine concatenate_apply_piece (1 : Fin Cert.ReferenceIdeal.S100000x192.rank) ([⟨Cert.ReferenceIdeal.S100000x64, y0⟩, ⟨Cert.ReferenceIdeal.S100000x64, y1⟩, ⟨Cert.ReferenceIdeal.S100000x64, y2⟩] : List ((s : Shape) × (s.Idx → α))) h _ 0 (show 0 < 3 by omega) Cert.ReferenceIdeal.S100000x64 y0 rfl rfl 0 rfl (ix2 r k) ?_ ?_
  · intro b hb
    match b with
    | ⟨0, _⟩ => rfl
    | ⟨1, _⟩ => exact absurd rfl hb
  · show 0 + k.val = k.val
    omega

/-- … at a column of the SECOND run: the second array at that column less 64. -/
theorem concat3_read1 (y0 y1 y2 : Cert.ReferenceIdeal.S100000x64.Idx → α)
    (h : Shape.Concatenates [Cert.ReferenceIdeal.S100000x64, Cert.ReferenceIdeal.S100000x64, Cert.ReferenceIdeal.S100000x64] Cert.ReferenceIdeal.S100000x192 1)
    (r : Fin 100000) (k : Fin 64) :
    concatenate Cert.ReferenceIdeal.S100000x192 1 [⟨Cert.ReferenceIdeal.S100000x64, y0⟩, ⟨Cert.ReferenceIdeal.S100000x64, y1⟩, ⟨Cert.ReferenceIdeal.S100000x64, y2⟩] h
      (ix2 r (⟨64 + k.val, by omega⟩ : Fin 192)) = y1 (ix2 r k) := by
  refine concatenate_apply_piece (1 : Fin Cert.ReferenceIdeal.S100000x192.rank) ([⟨Cert.ReferenceIdeal.S100000x64, y0⟩, ⟨Cert.ReferenceIdeal.S100000x64, y1⟩, ⟨Cert.ReferenceIdeal.S100000x64, y2⟩] : List ((s : Shape) × (s.Idx → α))) h _ 1 (show 1 < 3 by omega) Cert.ReferenceIdeal.S100000x64 y1 rfl rfl 64 rfl (ix2 r k) ?_ ?_
  · intro b hb
    match b with
    | ⟨0, _⟩ => rfl
    | ⟨1, _⟩ => exact absurd rfl hb
  · show 64 + k.val = 64 + k.val
    rfl

/-- … at a column of the THIRD run: the third array at that column less 128. -/
theorem concat3_read2 (y0 y1 y2 : Cert.ReferenceIdeal.S100000x64.Idx → α)
    (h : Shape.Concatenates [Cert.ReferenceIdeal.S100000x64, Cert.ReferenceIdeal.S100000x64, Cert.ReferenceIdeal.S100000x64] Cert.ReferenceIdeal.S100000x192 1)
    (r : Fin 100000) (k : Fin 64) :
    concatenate Cert.ReferenceIdeal.S100000x192 1 [⟨Cert.ReferenceIdeal.S100000x64, y0⟩, ⟨Cert.ReferenceIdeal.S100000x64, y1⟩, ⟨Cert.ReferenceIdeal.S100000x64, y2⟩] h
      (ix2 r (⟨128 + k.val, by omega⟩ : Fin 192)) = y2 (ix2 r k) := by
  refine concatenate_apply_piece (1 : Fin Cert.ReferenceIdeal.S100000x192.rank) ([⟨Cert.ReferenceIdeal.S100000x64, y0⟩, ⟨Cert.ReferenceIdeal.S100000x64, y1⟩, ⟨Cert.ReferenceIdeal.S100000x64, y2⟩] : List ((s : Shape) × (s.Idx → α))) h _ 2 (show 2 < 3 by omega) Cert.ReferenceIdeal.S100000x64 y2 rfl rfl 128 rfl (ix2 r k) ?_ ?_
  · intro b hb
    match b with
    | ⟨0, _⟩ => rfl
    | ⟨1, _⟩ => exact absurd rfl hb
  · show 128 + k.val = 128 + k.val
    rfl

end Concat

section Reference
variable (x0 : (⟨Cert.ReferenceIdeal.S100000x256, .f32⟩ : BufTy).Contents (Elt Ideal)) (x1 : (⟨Cert.ReferenceIdeal.S2x1600000, .i32⟩ : BufTy).Contents (Elt Ideal)) (x2 : (⟨Cert.ReferenceIdeal.S256x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal)) (x8 : (⟨Cert.ReferenceIdeal.S64x64, .f32⟩ : BufTy).Contents (Elt Ideal)) (x9 : (⟨Cert.ReferenceIdeal.S64, .f32⟩ : BufTy).Contents (Elt Ideal))

/-- The reference's clipped concatenation at an entry: the concatenation's entry, or zero if that is larger. -/
theorem v76_read (i : Cert.ReferenceIdeal.S100000x192.Idx) :
    Cert.ReferenceIdeal.ReadP.val_main_v76 (F := Ideal) x0 x1 x2 x3 x4 x5 x6 x7 x8 x9 i
      = max (Cert.ReferenceIdeal.ReadP.val_main_v75 (F := Ideal) x0 x1 x2 x3 x4 x5 x6 x7 x8 x9 i) (Ideal.ofBits .f32 0x00000000#32) := by
  rw [Cert.ReferenceIdeal.ReadP.val_main_v76_apply, Cert.ReferenceIdeal.ReadP.val_main_call2_v0_apply, Cert.ReferenceIdeal.ReadP.val_main_call2_cst_apply]
  rfl

/-- The concatenation's column `k < 64` is the first hidden array's column `k`. -/
theorem v75_read0 (r : Fin 100000) (k : Fin 64) :
    Cert.ReferenceIdeal.ReadP.val_main_v75 (F := Ideal) x0 x1 x2 x3 x4 x5 x6 x7 x8 x9 (ix2 r (⟨k.val, by omega⟩ : Fin 192))
      = Cert.ReferenceIdeal.ReadP.val_main_v66 (F := Ideal) x0 x2 x3 x4 x5 (ix2 r k) := by
  unfold Cert.ReferenceIdeal.ReadP.val_main_v75
  exact concat3_read0 _ _ _ _ r k

/-- The concatenation's column `64 + k` is the second hidden array's column `k`. -/
theorem v75_read1 (r : Fin 100000) (k : Fin 64) :
    Cert.ReferenceIdeal.ReadP.val_main_v75 (F := Ideal) x0 x1 x2 x3 x4 x5 x6 x7 x8 x9 (ix2 r (⟨64 + k.val, by omega⟩ : Fin 192))
      = Cert.ReferenceIdeal.ReadP.val_main_v70 (F := Ideal) x0 x1 x2 x3 x6 x7 (ix2 r k) := by
  unfold Cert.ReferenceIdeal.ReadP.val_main_v75
  exact concat3_read1 _ _ _ _ r k

/-- The concatenation's column `128 + k` is the third hidden array's column `k`. -/
theorem v75_read2 (r : Fin 100000) (k : Fin 64) :
    Cert.ReferenceIdeal.ReadP.val_main_v75 (F := Ideal) x0 x1 x2 x3 x4 x5 x6 x7 x8 x9 (ix2 r (⟨128 + k.val, by omega⟩ : Fin 192))
      = Cert.ReferenceIdeal.ReadP.val_main_v74 (F := Ideal) x0 x1 x2 x3 x8 x9 (ix2 r k) := by
  unfold Cert.ReferenceIdeal.ReadP.val_main_v75
  exact concat3_read2 _ _ _ _ r k

end Reference

theorem logits_block (x0 : (⟨Cert.ReferenceIdeal.S100000x256, .f32⟩ : BufTy).Contents (Elt Ideal)) (x1 : (⟨Cert.ReferenceIdeal.S2x1600000, .i32⟩ : BufTy).Contents (Elt Ideal)) (x2 : (⟨Cert.ReferenceIdeal.S256x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal)) (x8 : (⟨Cert.ReferenceIdeal.S64x64, .f32⟩ : BufTy).Contents (Elt Ideal)) (x9 : (⟨Cert.ReferenceIdeal.S64, .f32⟩ : BufTy).Contents (Elt Ideal)) (x10 : (⟨Cert.ReferenceIdeal.S192x40, .f32⟩ : BufTy).Contents (Elt Ideal)) (x11 : (⟨Cert.ReferenceIdeal.S40, .f32⟩ : BufTy).Contents (Elt Ideal))
    (o0 o1 o2 : FVec Ideal S2000x64 .f32) (Xw2a Xw2b Xw2c : Vec Ideal S64x40 .f32) (Xb2 : Vec Ideal S1x40 .f32) (b : Fin 50)
    (h0 : ∀ (p : Fin 2000) (k : Fin 64), o0 (ix2 p k) = max (Cert.ReferenceIdeal.ReadP.val_main_v66 (F := Ideal) x0 x2 x3 x4 x5 (ix2 (grow b p) k)) (Ideal.ofBits .f32 0x00000000#32))
    (h1 : ∀ (p : Fin 2000) (k : Fin 64), o1 (ix2 p k) = max (Cert.ReferenceIdeal.ReadP.val_main_v70 (F := Ideal) x0 x1 x2 x3 x6 x7 (ix2 (grow b p) k)) (Ideal.ofBits .f32 0x00000000#32))
    (h2 : ∀ (p : Fin 2000) (k : Fin 64), o2 (ix2 p k) = max (Cert.ReferenceIdeal.ReadP.val_main_v74 (F := Ideal) x0 x1 x2 x3 x8 x9 (ix2 (grow b p) k)) (Ideal.ofBits .f32 0x00000000#32))
    (hw2a : ∀ (k : Fin 64) (j : Fin 40), Xw2a (ix2 k j) = x10 (ix2 (⟨k.val, by omega⟩ : Fin 192) j))
    (hw2b : ∀ (k : Fin 64) (j : Fin 40), Xw2b (ix2 k j) = x10 (ix2 (⟨64 + k.val, by omega⟩ : Fin 192) j))
    (hw2c : ∀ (k : Fin 64) (j : Fin 40), Xw2c (ix2 k j) = x10 (ix2 (⟨128 + k.val, by omega⟩ : Fin 192) j))
    (hb2 : ∀ j : Fin 40, Xb2 (ix2 (0 : Fin 1) j) = x11 (ix1 j))
    (p : Fin 2000) (j : Fin 40) :
    logitsK (F := Ideal) o0 o1 o2 Xw2a Xw2b Xw2c Xb2 (ix2 p j) = Cert.ReferenceIdeal.ReadP.val_main_v80 (F := Ideal) x0 x1 x2 x3 x4 x5 x6 x7 x8 x9 x10 x11 (ix2 (grow b p) j) := by
  -- the kernel's logits at (p, j): three sums over 64 positions and the bias row's entry
  have hK : logitsK (F := Ideal) o0 o1 o2 Xw2a Xw2b Xw2c Xb2 (ix2 p j)
      = ((∑ k : Fin 64, o0 (ix2 p k) * Xw2a (ix2 k j)) + (∑ k : Fin 64, o1 (ix2 p k) * Xw2b (ix2 k j)))
          + (∑ k : Fin 64, o2 (ix2 p k) * Xw2c (ix2 k j)) + Xb2 (ix2 (0 : Fin 1) j) := by
    unfold logitsK
    simp only [shapeCast_self, ValueIdx.addf_apply, matmul_read, ValueIdx.truncf_apply, broadcastTo_1b_ab_apply]
  -- the reference's operand indices at contraction position k: (row, k) on the left, (k, j) on the right
  have hl : ∀ k : Fin 192, Cert.ReferenceIdeal.ReadP.lidx_main_v77 (ix2 (grow b p) j) k = ix2 (grow b p) k := fun k =>
    funext fun a => by match a with | ⟨0, _⟩ => rfl | ⟨1, _⟩ => rfl
  have hr : ∀ k : Fin 192, Cert.ReferenceIdeal.ReadP.ridx_main_v77 (ix2 (grow b p) j) k = ix2 k j := fun k =>
    funext fun a => by match a with | ⟨0, _⟩ => rfl | ⟨1, _⟩ => rfl
  -- the reference's broadcast bias at (row, j) is the bias vector's entry j
  have h79 : Cert.ReferenceIdeal.ReadP.val_main_v79 (F := Ideal) x11 (ix2 (grow b p) j) = x11 (ix1 j) := by
    rw [Cert.ReferenceIdeal.ReadP.val_main_v79_apply, Cert.ReferenceIdeal.ReadP.val_main_v78_apply]
    exact congrArg x11 (funext fun a => by match a with | ⟨0, _⟩ => rfl)
  rw [hK, hb2 j]
  refine Eq.trans ?_ (Cert.ReferenceIdeal.ReadP.val_main_v80_apply (F := Ideal) x0 x1 x2 x3 x4 x5 x6 x7 x8 x9 x10 x11 (ix2 (grow b p) j)).symm
  show _ = Cert.ReferenceIdeal.ReadP.val_main_v77 (F := Ideal) x0 x1 x2 x3 x4 x5 x6 x7 x8 x9 x10 (ix2 (grow b p) j)
      + Cert.ReferenceIdeal.ReadP.val_main_v79 (F := Ideal) x11 (ix2 (grow b p) j)
  rw [h79, Cert.ReferenceIdeal.ReadP.val_main_v77_apply]
  refine congrArg (· + x11 (ix1 j)) ?_
  -- the sum over 192 positions is the sum of its three runs of 64; on each run the factors are the kernel's
  refine (sum_three_runs _ _ _ _ (fun k => ?_) (fun k => ?_) (fun k => ?_)).symm
  · rw [hl, hr, v76_read, v75_read0, h0 p k, hw2a k j]
  · rw [hl, hr, v76_read, v75_read1, h1 p k, hw2b k j]
  · rw [hl, hr, v76_read, v75_read2, h2 p k, hw2c k j]

end Cert.Bridge

end
-- ==== Proof.HeadSoftmax.lean ====
/-
  The log-softmax of a block of logits against the reference's. Both subtract the row's maximum and then the logarithm of
  the row's sum of exponentials. The kernel's row maximum is a fold of `max` from `-∞` over the row's 40 entries; the
  reference's is its own reduction from `-∞` followed by one more maximum with `-∞`, which changes nothing (`-∞` is the
  least extended real). Both row sums start from zero. Everything else is the same operation on equal entries.
-/
import proofs.«104437_j26439818674272_1_alg».proof.Proof.Gen.KernelIdeal.Skeleton
import proofs.«104437_j26439818674272_1_alg».proof.Proof.RefRead
import proofs.«104437_j26439818674272_1_alg».proof.Proof.Rows
import proofs.«104437_j26439818674272_1_alg».proof.Proof.LibContraction
import Idealize.ShloMosaic.Lib.ValueIdx
import Idealize.ShloMosaic.Lib.ValueLayout
import Idealize.ShloMosaic.Lib.Pipeline.Value
import Idealize.ShloMosaic.PureOps.Ideal.Laws
import proofs.«104437_j26439818674272_1_alg».proof.Proof.HeadSplit

noncomputable section

open scoped BigOperators

namespace Cert.Bridge

open Idealize.ShloMosaic Idealize.ShloMosaic.ValueIdx Cert.KernelIdeal Cert.KernelIdeal.Gen

/-- The fold of `max` from the word `0xFF800000` over a row of 40 entries: the row maximum as both sides take it. The word
    is never evaluated: it is the same on both sides. -/
private def rowMax (f : Fin 40 → EReal) : EReal :=
  (Finset.univ : Finset (Fin 40)).fold max (Ideal.ofBits .f32 0xFF800000#32) f

/-! ## The kernel's side -/

/-- A column `[2000, 1]` spread over the 40 columns reads, at `(p, j)`, the column at `(p, 0)`. -/
private theorem bcastK {α : Type} (x : S2000x1.Idx → α) (p : Fin 2000) (j : Fin 40) :
    broadcastTo S2000x40 x broadcasts_S2000x1_S2000x40 (ix2 p j) = x (ix2 p (⟨0, Nat.one_pos⟩ : Fin 1)) :=
  broadcastTo_apply x _ (ix2 p j) (ix2 p (⟨0, Nat.one_pos⟩ : Fin 1)) (fun a => match a with
    | ⟨0, _⟩ => by show p.val = if (2000 : Nat) = 1 then 0 else p.val; rw [if_neg (by decide)]
    | ⟨1, _⟩ => by show 0 = if (1 : Nat) = 1 then 0 else j.val; rw [if_pos rfl])

/-- A vector `[2000]` viewed as a column `[2000, 1]` reads, at `(p, 0)`, the vector at `p`: the same row-major position. -/
private theorem castK {α : Type} (v : S2000.Idx → α) (p : Fin 2000) :
    shapeCast S2000x1 v shapeCasts_S2000_S2000x1 (ix2 p (⟨0, Nat.one_pos⟩ : Fin 1)) = v (ix1 p) :=
  shapeCast_apply v _ _ (ix1 p) (by
    rw [Shape.rowMajor_val_one, Shape.rowMajor_val_two]
    show p.val = p.val * 1 + 0
    omega)

/-- The kernel's row maximum at row `p`: the fold over that row's 40 entries (the index over `p` with `k` inserted on
    the reduced axis is `(p, k)`). -/
private theorem rowMaxK (L : FVec Ideal S2000x40 .f32) (p : Fin 2000) :
    multiReduction (F := Ideal) .maximumf [1] S2000 L 0xFF800000#32 reduces_S2000x40_S2000 (.inl rfl) rfl (ix1 p)
      = rowMax fun k => L (ix2 p k) := by
  refine (Ideal.multiReduction_maximumf_single L _ reduces_S2000x40_S2000 (.inl rfl) rfl (ix1 p)).trans ?_
  show (Finset.univ : Finset (Fin 40)).fold max (Ideal.ofBits .f32 0xFF800000#32) (L ∘ reduces_S2000x40_S2000.lift (ix1 p)) = _
  refine congrArg (fun f => (Finset.univ : Finset (Fin 40)).fold max (Ideal.ofBits .f32 0xFF800000#32) f) (funext fun k => ?_)
  exact congrArg L (funext fun a => Fin.ext (by match a with | ⟨0, _⟩ => rfl | ⟨1, _⟩ => rfl))

/-- The kernel's row sum at row `p`: the sum over that row's 40 entries, with no initial term. -/
private theorem rowSumK (E : FVec Ideal S2000x40 .f32) (p : Fin 2000) :
    multiReduction (F := Ideal) .add [1] S2000 E 0x00000000#32 reduces_S2000x40_S2000 (.inl rfl) rfl (ix1 p)
      = ∑ k : Fin 40, E (ix2 p k) := by
  refine (Ideal.multiReduction_add_single E _ reduces_S2000x40_S2000 (.inl rfl) rfl (ix1 p)).trans ?_
  show ∑ k : Fin 40, E (reduces_S2000x40_S2000.lift (ix1 p) k) = _
  refine Finset.sum_congr rfl fun k _ => ?_
  exact congrArg E (funext fun a => Fin.ext (by match a with | ⟨0, _⟩ => rfl | ⟨1, _⟩ => rfl))

/-- The kernel's log-softmax at `(p, j)` in closed form: with `M` the maximum of row `p`,
    `(L (p, j) - M) - log (∑ k, exp (L (p, k) - M))`. -/
private theorem lsmK_apply (L : FVec Ideal S2000x40 .f32) (p : Fin 2000) (j : Fin 40) :
    lsmK (F := Ideal) L (ix2 p j)
      = (L (ix2 p j) - rowMax fun k => L (ix2 p k))
        - Ideal.log (∑ k : Fin 40, Ideal.exp (L (ix2 p k) - rowMax fun k' => L (ix2 p k'))) := by
  unfold lsmK
  dsimp only
  -- the row maximum, spread back over the row, is the same number at every column
  have hM : ∀ k : Fin 40, broadcastTo S2000x40 (shapeCast S2000x1 (multiReduction (F := Ideal) .maximumf [1] S2000 L 0xFF800000#32 reduces_S2000x40_S2000 (.inl rfl) rfl) shapeCasts_S2000_S2000x1) broadcasts_S2000x1_S2000x40 (ix2 p k)
      = rowMax fun k' => L (ix2 p k') :=
    fun k => (bcastK _ p k).trans ((castK _ p).trans (rowMaxK L p))
  simp only [ValueIdx.subf_apply]
  rw [hM j, bcastK]
  refine congrArg (fun s => (L (ix2 p j) - rowMax fun k' => L (ix2 p k')) - s) ?_
  -- the logarithm is taken entry by entry, of the row sum viewed as a column
  show Ideal.log (shapeCast S2000x1 _ shapeCasts_S2000_S2000x1 (ix2 p (⟨0, Nat.one_pos⟩ : Fin 1))) = _
  rw [castK, rowSumK]
  refine congrArg Ideal.log (Finset.sum_congr rfl fun k _ => ?_)
  -- the exponential is taken entry by entry, of the entry less the row maximum
  show Ideal.exp (L (ix2 p k) - _) = _
  rw [hM k]

/-! ## The reference's side -/

section Reference

open Cert.ReferenceIdeal.ReadP

variable (x0 : (⟨Cert.ReferenceIdeal.S100000x256, .f32⟩ : BufTy).Contents (Elt Ideal)) (x1 : (⟨Cert.ReferenceIdeal.S2x1600000, .i32⟩ : BufTy).Contents (Elt Ideal)) (x2 : (⟨Cert.ReferenceIdeal.S256x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal)) (x8 : (⟨Cert.ReferenceIdeal.S64x64, .f32⟩ : BufTy).Contents (Elt Ideal)) (x9 : (⟨Cert.ReferenceIdeal.S64, .f32⟩ : BufTy).Contents (Elt Ideal)) (x10 : (⟨Cert.ReferenceIdeal.S192x40, .f32⟩ : BufTy).Contents (Elt Ideal)) (x11 : (⟨Cert.ReferenceIdeal.S40, .f32⟩ : BufTy).Contents (Elt Ideal))

/-- The reference's row maximum, spread back over the row: at `(r, j)` the fold over row `r`'s 40 entries. The reference
    takes one more maximum with the word the fold starts from; the fold is above its starting value, so that maximum is
    the fold itself. -/
private theorem rowMaxR (r : Fin 100000) (j : Fin 40) :
    val_main_call3_v4 (F := Ideal) x0 x1 x2 x3 x4 x5 x6 x7 x8 x9 x10 x11 (ix2 r j) = rowMax fun k => val_main_v80 (F := Ideal) x0 x1 x2 x3 x4 x5 x6 x7 x8 x9 x10 x11 (ix2 r k) := by
  rw [val_main_call3_v4_apply, val_main_call3_v3_apply, val_main_call3_v2_apply, val_main_call3_v1_apply,
    val_main_call3_cst_0_apply]
  unfold val_main_call3_v0
  refine (congrArg (max (Ideal.ofBits .f32 0xFF800000#32)) (Host.reduce_eq_fold_single (FloatOps.maximumf (F := Ideal) (φ := .f32)) (val_main_v80 (F := Ideal) x0 x1 x2 x3 x4 x5 x6 x7 x8 x9 x10 x11) _ Cert.ReferenceIdeal.Gen.reducesTo_S100000x40_S100000_d1 (by decide) Cert.ReferenceIdeal.Gen.h_S_ _)).trans ?_
  show max (Ideal.ofBits .f32 0xFF800000#32) ((Finset.univ : Finset (Fin 40)).fold max (Ideal.ofBits .f32 0xFF800000#32) ((val_main_v80 (F := Ideal) x0 x1 x2 x3 x4 x5 x6 x7 x8 x9 x10 x11) ∘ _)) = _
  rw [max_eq_right ((Finset.le_fold_max _).mpr (Or.inl le_rfl))]
  refine congrArg (fun f => (Finset.univ : Finset (Fin 40)).fold max (Ideal.ofBits .f32 0xFF800000#32) f) (funext fun k => ?_)
  exact congrArg (val_main_v80 (F := Ideal) x0 x1 x2 x3 x4 x5 x6 x7 x8 x9 x10 x11) (funext fun a => Fin.ext (by match a with | ⟨0, _⟩ => rfl | ⟨1, _⟩ => rfl))

/-- The reference's logarithm of the row sum, spread back over the row: the sum starts from zero, which adds nothing, and
    runs over row `r`'s 40 exponentials. -/
private theorem rowSumR (r : Fin 100000) (j : Fin 40) :
    val_main_call3_v10 (F := Ideal) x0 x1 x2 x3 x4 x5 x6 x7 x8 x9 x10 x11 (ix2 r j)
      = Ideal.log (∑ k : Fin 40, Ideal.exp (val_main_call3_v5 (F := Ideal) x0 x1 x2 x3 x4 x5 x6 x7 x8 x9 x10 x11 (ix2 r k))) := by
  rw [val_main_call3_v10_apply, val_main_call3_v9_apply, val_main_call3_v8_apply, val_main_call3_v7_apply,
    val_main_call3_cst_1_apply]
  show Ideal.log (Ideal.ofBits .f32 0x00000000#32 + ∑ k : Fin 40, val_main_call3_v6 (F := Ideal) x0 x1 x2 x3 x4 x5 x6 x7 x8 x9 x10 x11 (idx_main_call3_v7 _ k)) = _
  rw [Ideal.ofBits_zero_f32, zero_add]
  refine congrArg Ideal.log (Finset.sum_congr rfl fun k _ => ?_)
  rw [val_main_call3_v6_apply]
  show Ideal.exp (val_main_call3_v5 (F := Ideal) x0 x1 x2 x3 x4 x5 x6 x7 x8 x9 x10 x11 _) = _
  exact congrArg (fun i => Ideal.exp (val_main_call3_v5 (F := Ideal) x0 x1 x2 x3 x4 x5 x6 x7 x8 x9 x10 x11 i)) (funext fun a => Fin.ext (by match a with | ⟨0, _⟩ => rfl | ⟨1, _⟩ => rfl))

/-- The reference's log-softmax at `(r, j)` in the same closed form, over the reference's logits. -/
private theorem lsmR_apply (r : Fin 100000) (j : Fin 40) :
    val_main_v81 (F := Ideal) x0 x1 x2 x3 x4 x5 x6 x7 x8 x9 x10 x11 (ix2 r j)
      = (val_main_v80 (F := Ideal) x0 x1 x2 x3 x4 x5 x6 x7 x8 x9 x10 x11 (ix2 r j) - rowMax fun k => val_main_v80 (F := Ideal) x0 x1 x2 x3 x4 x5 x6 x7 x8 x9 x10 x11 (ix2 r k))
        - Ideal.log (∑ k : Fin 40, Ideal.exp (val_main_v80 (F := Ideal) x0 x1 x2 x3 x4 x5 x6 x7 x8 x9 x10 x11 (ix2 r k) - rowMax fun k' => val_main_v80 (F := Ideal) x0 x1 x2 x3 x4 x5 x6 x7 x8 x9 x10 x11 (ix2 r k'))) := by
  have h5 : ∀ k : Fin 40, val_main_call3_v5 (F := Ideal) x0 x1 x2 x3 x4 x5 x6 x7 x8 x9 x10 x11 (ix2 r k)
      = val_main_v80 (F := Ideal) x0 x1 x2 x3 x4 x5 x6 x7 x8 x9 x10 x11 (ix2 r k) - rowMax fun k' => val_main_v80 (F := Ideal) x0 x1 x2 x3 x4 x5 x6 x7 x8 x9 x10 x11 (ix2 r k') := by
    intro k
    rw [val_main_call3_v5_apply, rowMaxR]
    rfl
  rw [val_main_v81_apply, rowSumR, h5 j]
  show _ - Ideal.log _ = _
  refine congrArg (fun s => _ - Ideal.log s) (Finset.sum_congr rfl fun k _ => ?_)
  rw [h5 k]

end Reference

theorem softmax_block (x0 : (⟨Cert.ReferenceIdeal.S100000x256, .f32⟩ : BufTy).Contents (Elt Ideal)) (x1 : (⟨Cert.ReferenceIdeal.S2x1600000, .i32⟩ : BufTy).Contents (Elt Ideal)) (x2 : (⟨Cert.ReferenceIdeal.S256x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal)) (x8 : (⟨Cert.ReferenceIdeal.S64x64, .f32⟩ : BufTy).Contents (Elt Ideal)) (x9 : (⟨Cert.ReferenceIdeal.S64, .f32⟩ : BufTy).Contents (Elt Ideal)) (x10 : (⟨Cert.ReferenceIdeal.S192x40, .f32⟩ : BufTy).Contents (Elt Ideal)) (x11 : (⟨Cert.ReferenceIdeal.S40, .f32⟩ : BufTy).Contents (Elt Ideal))
    (L : FVec Ideal S2000x40 .f32) (b : Fin 50)
    (hL : ∀ (p : Fin 2000) (j : Fin 40), L (ix2 p j) = Cert.ReferenceIdeal.ReadP.val_main_v80 (F := Ideal) x0 x1 x2 x3 x4 x5 x6 x7 x8 x9 x10 x11 (ix2 (grow b p) j))
    (p : Fin 2000) (j : Fin 40) :
    lsmK (F := Ideal) L (ix2 p j) = Cert.ReferenceIdeal.ReadP.val_main_v81 (F := Ideal) x0 x1 x2 x3 x4 x5 x6 x7 x8 x9 x10 x11 (ix2 (grow b p) j) := by
  -- both sides in closed form; the entries of the kernel's row are the entries of the reference's row
  rw [lsmK_apply, lsmR_apply]
  simp only [hL]

end Cert.Bridge

end
-- ==== Proof.HeadBlock.lean ====
/-
  The head kernel's stored block against the reference's result: the three projections, the logits and the log-softmax
  composed. Given that the three feature blocks, the weights and the bias rows the kernel loads are the corresponding
  entries of the reference's arrays, every entry the kernel stores for a block is the reference's result entry on that
  block's row of the whole array.
-/
import proofs.«104437_j26439818674272_1_alg».proof.Proof.HeadSplit
import proofs.«104437_j26439818674272_1_alg».proof.Proof.HeadRelu
import proofs.«104437_j26439818674272_1_alg».proof.Proof.HeadLogits
import proofs.«104437_j26439818674272_1_alg».proof.Proof.HeadSoftmax

noncomputable section

open scoped BigOperators

namespace Cert.Bridge

open Idealize.ShloMosaic Idealize.ShloMosaic.ValueIdx Cert.KernelIdeal Cert.KernelIdeal.Gen

theorem head_block (x0 : (⟨Cert.ReferenceIdeal.S100000x256, .f32⟩ : BufTy).Contents (Elt Ideal)) (x1 : (⟨Cert.ReferenceIdeal.S2x1600000, .i32⟩ : BufTy).Contents (Elt Ideal)) (x2 : (⟨Cert.ReferenceIdeal.S256x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal)) (x8 : (⟨Cert.ReferenceIdeal.S64x64, .f32⟩ : BufTy).Contents (Elt Ideal)) (x9 : (⟨Cert.ReferenceIdeal.S64, .f32⟩ : BufTy).Contents (Elt Ideal)) (x10 : (⟨Cert.ReferenceIdeal.S192x40, .f32⟩ : BufTy).Contents (Elt Ideal)) (x11 : (⟨Cert.ReferenceIdeal.S40, .f32⟩ : BufTy).Contents (Elt Ideal))
    (Xh Xh1 Xh2 : Vec Ideal S2000x64 .f32) (Xwp0 Xwp1 Xwp2 : Vec Ideal S64x64 .f32) (Xbp0 Xbp1 Xbp2 : Vec Ideal S1x64 .f32)
    (Xw2a Xw2b Xw2c : Vec Ideal S64x40 .f32) (Xb2 : Vec Ideal S1x40 .f32) (b : Fin 50)
    (hh : ∀ (p : Fin 2000) (l : Fin 64), Xh (ix2 p l) = Cert.ReferenceIdeal.ReadP.val_main_v4 (F := Ideal) x0 x2 x3 (ix2 (grow b p) l))
    (hh1 : ∀ (p : Fin 2000) (l : Fin 64), Xh1 (ix2 p l) = Cert.ReferenceIdeal.ReadP.val_main_v49 (F := Ideal) x0 x1 x2 x3 (ix2 (grow b p) l))
    (hh2 : ∀ (p : Fin 2000) (l : Fin 64), Xh2 (ix2 p l) = Cert.ReferenceIdeal.ReadP.val_main_v62 (F := Ideal) x0 x1 x2 x3 (ix2 (grow b p) l))
    (hwp0 : ∀ (l k : Fin 64), Xwp0 (ix2 l k) = x4 (ix2 l k)) (hwp1 : ∀ (l k : Fin 64), Xwp1 (ix2 l k) = x6 (ix2 l k))
    (hwp2 : ∀ (l k : Fin 64), Xwp2 (ix2 l k) = x8 (ix2 l k))
    (hbp0 : ∀ k : Fin 64, Xbp0 (ix2 (0 : Fin 1) k) = x5 (ix1 k)) (hbp1 : ∀ k : Fin 64, Xbp1 (ix2 (0 : Fin 1) k) = x7 (ix1 k))
    (hbp2 : ∀ k : Fin 64, Xbp2 (ix2 (0 : Fin 1) k) = x9 (ix1 k))
    (hw2a : ∀ (k : Fin 64) (j : Fin 40), Xw2a (ix2 k j) = x10 (ix2 (⟨k.val, by omega⟩ : Fin 192) j))
    (hw2b : ∀ (k : Fin 64) (j : Fin 40), Xw2b (ix2 k j) = x10 (ix2 (⟨64 + k.val, by omega⟩ : Fin 192) j))
    (hw2c : ∀ (k : Fin 64) (j : Fin 40), Xw2c (ix2 k j) = x10 (ix2 (⟨128 + k.val, by omega⟩ : Fin 192) j))
    (hb2 : ∀ j : Fin 40, Xb2 (ix2 (0 : Fin 1) j) = x11 (ix1 j))
    (p : Fin 2000) (j : Fin 40) :
    k1_pay1 (F := Ideal) (k1_pay2 Xh Xwp0 Xbp0) (k1_pay3 Xh1 Xwp1 Xbp1) (k1_pay4 Xh2 Xwp2 Xbp2) (k1_pay5 (F := Ideal)) Xw2a Xw2b Xw2c Xb2 (ix2 p j)
      = Cert.ReferenceIdeal.ReadP.val_main_v81 (F := Ideal) x0 x1 x2 x3 x4 x5 x6 x7 x8 x9 x10 x11 (ix2 (grow b p) j) := by
  rw [k1_pay1_eq]
  refine softmax_block x0 x1 x2 x3 x4 x5 x6 x7 x8 x9 x10 x11 _ b (fun p' j' => ?_) p j
  exact logits_block x0 x1 x2 x3 x4 x5 x6 x7 x8 x9 x10 x11 _ _ _ Xw2a Xw2b Xw2c Xb2 b
    (relu0_block x0 x1 x2 x3 x4 x5 x6 x7 x8 x9 x10 x11 Xh Xwp0 Xbp0 b hh hwp0 hbp0)
    (relu1_block x0 x1 x2 x3 x4 x5 x6 x7 x8 x9 x10 x11 Xh1 Xwp1 Xbp1 b hh1 hwp1 hbp1)
    (relu2_block x0 x1 x2 x3 x4 x5 x6 x7 x8 x9 x10 x11 Xh2 Xwp2 Xbp2 b hh2 hwp2 hbp2)
    hw2a hw2b hw2c hb2 p' j'

end Cert.Bridge

end
-- ==== Proof.KernelValue.lean ====
/-
  The idealized kernel's result array is the reference's result, as ONE function of the twelve argument arrays.
  The first region leaves the reference's hidden layer `relu (x · w1 + b1)`: each stored block is that function on the
  block's rows, and the fifty blocks tile the array. The host stretches between the regions then make the once- and
  twice-propagated arrays, which are the reference's because they are the same function of equal arrays. The head region
  leaves the reference's `log_softmax` result: again each stored block is that function on the block's rows of the three
  feature arrays — the biases reach the kernel with a leading unit axis, the last weight matrix as its three blocks of 64
  rows — and the fifty blocks tile the array. Last, the kernel's run is restated with its result buffer at that function.
-/
import proofs.«104437_j26439818674272_1_alg».proof.Proof.Region0Value
import proofs.«104437_j26439818674272_1_alg».proof.Proof.Region1Value
import proofs.«104437_j26439818674272_1_alg».proof.Proof.Glue
import proofs.«104437_j26439818674272_1_alg».proof.Proof.HiddenBlock
import proofs.«104437_j26439818674272_1_alg».proof.Proof.HeadBlock
import proofs.«104437_j26439818674272_1_alg».proof.Proof.KernelRun
import Idealize.ShloMosaic.Lib.ValueLayout

set_option maxRecDepth 16384

noncomputable section

namespace Cert.Bridge

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The first region's array is the reference's hidden layer. -/
theorem hidden_final (c : Dev nD) :
    (dat0 (V1 m ρ) c).arrAt 3 cfg0.N = Cert.ReferenceIdeal.ReadP.val_main_v4 (F := Ideal) (m ((c : Thread nD τ).loc main_arg0)) (m ((c : Thread nD τ).loc main_arg2)) (m ((c : Thread nD τ).loc main_arg3)) :=
  final0_of (V1 m ρ) c (m ((c : Thread nD τ).loc main_arg0)) (m ((c : Thread nD τ).loc main_arg2)) (shapeCast S1x64 (m ((c : Thread nD τ).loc main_arg3)) shapeCasts_S64_S1x64) _
    (V1_arg0 m ρ c) (V1_arg2 m ρ c) (V1_v0 m ρ c)
    (fun X0 X1 X2 b hX0 hX1 hX2 p k =>
      hidden_block (m ((c : Thread nD τ).loc main_arg0)) (m ((c : Thread nD τ).loc main_arg2)) (m ((c : Thread nD τ).loc main_arg3)) X0 X1 X2 b hX0 hX1
        (fun k => (hX2 k).trans (shapeCast_a_1a_apply _ shapeCasts_S64_S1x64 0 k)) p k)

/-- The head region's array is the reference's result. -/
theorem head_final (c : Dev nD) :
    (dat1 (V5 m ρ) c).arrAt 13 cfg1.N = Cert.ReferenceIdeal.ReadP.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  final1_of (V5 m ρ) c
    (Cert.ReferenceIdeal.ReadP.val_main_v4 (F := Ideal) (m ((c : Thread nD τ).loc main_arg0)) (m ((c : Thread nD τ).loc main_arg2)) (m ((c : Thread nD τ).loc main_arg3))) (Cert.ReferenceIdeal.ReadP.val_main_v49 (F := Ideal) (m ((c : Thread nD τ).loc main_arg0)) (m ((c : Thread nD τ).loc main_arg1)) (m ((c : Thread nD τ).loc main_arg2)) (m ((c : Thread nD τ).loc main_arg3))) (Cert.ReferenceIdeal.ReadP.val_main_v62 (F := Ideal) (m ((c : Thread nD τ).loc main_arg0)) (m ((c : Thread nD τ).loc main_arg1)) (m ((c : Thread nD τ).loc main_arg2)) (m ((c : Thread nD τ).loc main_arg3)))
    (m ((c : Thread nD τ).loc main_arg4)) (shapeCast S1x64 (m ((c : Thread nD τ).loc main_arg5)) shapeCasts_S64_S1x64)
    (m ((c : Thread nD τ).loc main_arg6)) (shapeCast S1x64 (m ((c : Thread nD τ).loc main_arg7)) shapeCasts_S64_S1x64)
    (m ((c : Thread nD τ).loc main_arg8)) (shapeCast S1x64 (m ((c : Thread nD τ).loc main_arg9)) shapeCasts_S64_S1x64)
    (extractStridedSlice S64x40 ![0, 0] (m ((c : Thread nD τ).loc main_arg10)) slices_S192x40_S64x40_0_0)
    (extractStridedSlice S64x40 ![64, 0] (m ((c : Thread nD τ).loc main_arg10)) slices_S192x40_S64x40_64_0)
    (extractStridedSlice S64x40 ![128, 0] (m ((c : Thread nD τ).loc main_arg10)) slices_S192x40_S64x40_128_0)
    (shapeCast S1x40 (m ((c : Thread nD τ).loc main_arg11)) shapeCasts_S40_S1x40) _
    ((V5_h m ρ c).trans (hidden_final m ρ c))
    ((V5_h1 m ρ c).trans (by rw [hidden_final, ← val_main_v49_eq]))
    ((V5_h2 m ρ c).trans (by rw [hidden_final, ← val_main_v49_eq, ← val_main_v62_eq]))
    (V5_wp0 m ρ c) (V5_bp0 m ρ c) (V5_wp1 m ρ c) (V5_bp1 m ρ c) (V5_wp2 m ρ c) (V5_bp2 m ρ c)
    (V5_w2a m ρ c) (V5_w2b m ρ c) (V5_w2c m ρ c) (V5_b2 m ρ c)
    (fun Xh Xh1 Xh2 Xwp0 Xbp0 Xwp1 Xbp1 Xwp2 Xbp2 Xw2a Xw2b Xw2c Xb2 b hh hh1 hh2 hwp0 hbp0 hwp1 hbp1 hwp2 hbp2 hw2a hw2b hw2c hb2 p j =>
      head_block (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) Xh Xh1 Xh2 Xwp0 Xwp1 Xwp2 Xbp0 Xbp1 Xbp2 Xw2a Xw2b Xw2c Xb2 b hh hh1 hh2 hwp0 hwp1 hwp2
        (fun k => (hbp0 k).trans (shapeCast_a_1a_apply _ shapeCasts_S64_S1x64 0 k))
        (fun k => (hbp1 k).trans (shapeCast_a_1a_apply _ shapeCasts_S64_S1x64 0 k))
        (fun k => (hbp2 k).trans (shapeCast_a_1a_apply _ shapeCasts_S64_S1x64 0 k))
        (fun k j => (hw2a k j).trans (slice2_axis0_apply 0 _ slices_S192x40_S64x40_0_0 k j ⟨k.val, by omega⟩ (by simp)))
        (fun k j => (hw2b k j).trans (slice2_axis0_apply 64 _ slices_S192x40_S64x40_64_0 k j ⟨64 + k.val, by omega⟩ rfl))
        (fun k j => (hw2c k j).trans (slice2_axis0_apply 128 _ slices_S192x40_S64x40_128_0 k j ⟨128 + k.val, by omega⟩ rfl))
        (fun j => (hb2 j).trans (shapeCast_a_1a_apply _ shapeCasts_S40_S1x40 0 j)) p j)

/-- The idealized kernel's run: every weakly fair execution terminates without a fault, the result buffer at the
    reference's result function of the argument arrays, the arguments unchanged. -/
theorem kernel_run : θ_run defs (onTc (τ := τ) (main (F := Ideal))) ⟨m, fun _ => 0, ρ⟩ (fun r => ∀ c : Dev nD,
      r.2.mem ((c.tc : Thread nD τ).loc main_v67) = Cert.ReferenceIdeal.ReadP.val_main_v81 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
      ⟨(h c).1.trans ((W6_arr m ρ c 13).trans (head_final m ρ c)), (h c).2⟩)
    (Cert.KernelIdeal.GenRun.run_out m ρ)

end Cert.Bridge

end
-- ==== Proof.lean ====
/-
  The certificate's claim: the two frames of the kernel (word-level and idealized) and the reference's, the idealization
  (the ideal pass rewrote nothing, so there is nothing to preserve), and the equivalence at the extended reals.
  The kernel computes a graph network's forward pass in two tiled regions with the sparse propagation between them on the
  host: `h = relu (x · w1 + b1)`; `h1`, `h2` = `h` propagated once and twice along the degree-normalised edges with self-loops;
  then per row `log_softmax (relu (h · wp0 + bp0) · w2[0:64] + relu (h1 · wp1 + bp1) · w2[64:128] + relu (h2 · wp2 + bp2) · w2[128:192] + b2)`.
  The reference concatenates the three projections and multiplies once by the whole `w2`. At the extended reals a change of
  float format is the identity, a product accumulated from zero is the plain sum, a sum over 192 positions is the sum of its
  three runs of 64, and the reference's extra maximum with `-∞` changes nothing; the propagation is the same function of equal
  arrays on both sides. So both programs end with the same function of the arguments (`Cert.Bridge.kernel_run`, and the
  reference's run read stage by stage).
-/
import proofs.«104437_j26439818674272_1_alg».proof.Defs
import proofs.«104437_j26439818674272_1_alg».proof.Proof.Gen.Kernel
import proofs.«104437_j26439818674272_1_alg».proof.Proof.Gen.Kernel.Frame
import proofs.«104437_j26439818674272_1_alg».proof.Proof.Gen.KernelIdeal
import proofs.«104437_j26439818674272_1_alg».proof.Proof.Gen.KernelIdeal.Frame
import proofs.«104437_j26439818674272_1_alg».proof.Proof.Gen.ReferenceIdeal
import proofs.«104437_j26439818674272_1_alg».proof.Proof.Gen.Pre_finite_inputs
import proofs.«104437_j26439818674272_1_alg».proof.Proof.RefValue
import proofs.«104437_j26439818674272_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.Bridge.ref_run (F := Ideal) m ρ)

/-- From memories that agree on the twelve arguments both programs end with the reference's result function of them. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.Bridge.kernel_run m ρ, ?_⟩
  refine (θ_run Cert.ReferenceIdeal.defs _ _).mono (fun _ h c => ⟨(h c).1.trans ?_, (h c).2⟩)
    (Cert.Bridge.ref_run (F := Ideal) m' ρ')
  obtain ⟨a0, a1, a2, a3, a4, a5, a6, a7, a8, a9, a10, a11⟩ := hagree c
  rw [a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
